-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S1x3200000 : Shape := ⟨2, ![1, 3200000]⟩
abbrev S3200000 : Shape := ⟨1, ![3200000]⟩
abbrev S1x64 : Shape := ⟨2, ![1, 64]⟩
abbrev S100000x64 : Shape := ⟨2, ![100000, 64]⟩
abbrev S4000x512 : Shape := ⟨2, ![4000, 512]⟩
abbrev S4000x64 : Shape := ⟨2, ![4000, 64]⟩
abbrev S_ : Shape := ⟨0, ![]⟩
abbrev S3200000x1 : Shape := ⟨2, ![3200000, 1]⟩
abbrev S3200000x64 : Shape := ⟨2, ![3200000, 64]⟩
abbrev S1x40 : Shape := ⟨2, ![1, 40]⟩
abbrev S100000x40 : Shape := ⟨2, ![100000, 40]⟩
abbrev S4000x40 : Shape := ⟨2, ![4000, 40]⟩
abbrev S3200000x40 : Shape := ⟨2, ![3200000, 40]⟩
abbrev S4000 : Shape := ⟨1, ![4000]⟩
abbrev S4000x1 : Shape := ⟨2, ![4000, 1]⟩

abbrev nBuf : Space → Nat
  | .hbm => 41
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S1x64, .f32⟩
  | .hbm, ⟨11, _⟩ => ⟨S100000x64, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S1x40, .f32⟩
  | .hbm, ⟨26, _⟩ => ⟨S100000x40, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x40, .f32⟩
  | .hbm, ⟨36, _⟩ => ⟨S_, .f32⟩
  | .hbm, ⟨37, _⟩ => ⟨S100000x40, .f32⟩
  | .hbm, ⟨38, _⟩ => ⟨S3200000x1, .i32⟩
  | .hbm, ⟨39, _⟩ => ⟨S100000x40, .f32⟩
  | .hbm, ⟨40, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S64x40, .f32⟩
  | .local _ .vmem, ⟨9, _⟩ => ⟨S1x40, .f32⟩
  | .local _ .vmem, ⟨10, _⟩ => ⟨S4000x40, .f32⟩
  | .local _ .vmem, ⟨11, _⟩ => ⟨S4000x40, .f32⟩
  | .local _ .vmem, ⟨12, _⟩ => ⟨S4000x40, .f32⟩
  | .local _ .vmem, ⟨13, _⟩ => ⟨S4000x40, .f32⟩
  | .local _ .vmem, ⟨14, _⟩ => ⟨S4000x40, .f32⟩
  | .local _ .vmem, ⟨15, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S64_S1x64 : S64.ShapeCasts S1x64
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  shapeCasts_S40_S1x40 : S40.ShapeCasts S1x40
  shapeCasts_S4000x64_S4000x64 : S4000x64.ShapeCasts S4000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  bcast_S_S100000x40 : S_.BroadcastsInDim S100000x40 (![] : Fin 0 → Fin S100000x40.rank)
  shapeCasts_S4000x40_S4000x40 : S4000x40.ShapeCasts S4000x40
  reduces_S4000x40_S4000 : S4000x40.Reduces [1] S4000
  shapeCasts_S4000_S4000x1 : S4000.ShapeCasts S4000x1
  broadcasts_S4000x1_S4000x40 : S4000x1.Broadcasts S4000x40
  dot_S4000x512_S512x64_S4000x64_1_0_0_1_n_n_wf : DotDims.WF S4000x512 S512x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x40_S4000x40_1_0_0_1_n_n_wf : DotDims.WF S4000x64 S64x40 S4000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x40.size a ≤ S100000x40.size a
  hwx1_3 : ∀ i : grid1.Coords, EltTy.bits .f32 = 32 ∨ (Rect.block (s := S100000x40) S4000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x40.size a ≤ S100000x40.size a
  hwx2_1 : ∀ i : grid2.Coords, EltTy.bits .f32 = 32 ∨ (Rect.block (s := S100000x40) S4000x40.size (cc2_transform_1 i) (hinb2_1 i)).WholeWords (EltTy.packing .f32)

variable [Facts₀]

def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S4000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S1x64 : Shape := ⟨2, ![1, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000x40 : Shape := ⟨2, ![100000, 40]⟩
abbrev S1x40 : Shape := ⟨2, ![1, 40]⟩
abbrev S3200000x40 : Shape := ⟨2, ![3200000, 40]⟩
abbrev S100000 : Shape := ⟨1, ![100000]⟩
abbrev S100000x1 : Shape := ⟨2, ![100000, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x64, .f32⟩
  | .hbm, ⟨23, _⟩ => ⟨S_, .f32⟩
  | .hbm, ⟨24, _⟩ => ⟨S100000x64, .f32⟩
  | .hbm, ⟨25, _⟩ => ⟨S3200000x1, .i32⟩
  | .hbm, ⟨26, _⟩ => ⟨S100000x64, .f32⟩
  | .hbm, ⟨27, _⟩ => ⟨S_, .f32⟩
  | .hbm, ⟨28, _⟩ => ⟨S100000x64, .f32⟩
  | .hbm, ⟨29, _⟩ => ⟨S100000x64, .i1⟩
  | .hbm, ⟨30, _⟩ => ⟨S_, .f32⟩
  | .hbm, ⟨31, _⟩ => ⟨S100000x64, .f32⟩
  | .hbm, ⟨32, _⟩ => ⟨S100000x64, .i1⟩
  | .hbm, ⟨33, _⟩ => ⟨S_, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x40, .f32⟩
  | .hbm, ⟨43, _⟩ => ⟨S1x40, .f32⟩
  | .hbm, ⟨44, _⟩ => ⟨S100000x40, .f32⟩
  | .hbm, ⟨45, _⟩ => ⟨S100000x40, .f32⟩
  | .hbm, ⟨46, _⟩ => ⟨S1x3200000, .i32⟩
  | .hbm, ⟨47, _⟩ => ⟨S3200000, .i32⟩
  | .hbm, ⟨48, _⟩ => ⟨S1x3200000, .i32⟩
  | .hbm, ⟨49, _⟩ => ⟨S3200000, .i32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x40, .f32⟩
  | .hbm, ⟨59, _⟩ => ⟨S_, .f32⟩
  | .hbm, ⟨60, _⟩ => ⟨S100000x40, .f32⟩
  | .hbm, ⟨61, _⟩ => ⟨S3200000x1, .i32⟩
  | .hbm, ⟨62, _⟩ => ⟨S100000x40, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x40, .f32⟩
  | .hbm, ⟨70, _⟩ => ⟨S100000x40, .f32⟩
  | .hbm, ⟨71, _⟩ => ⟨S100000x40, .f32⟩
  | .hbm, ⟨72, _⟩ => ⟨S_, .f32⟩
  | .hbm, ⟨73, _⟩ => ⟨S100000, .f32⟩
  | .hbm, ⟨74, _⟩ => ⟨S100000x1, .f32⟩
  | .hbm, ⟨75, _⟩ => ⟨S100000x1, .f32⟩
  | .hbm, ⟨76, _⟩ => ⟨S100000x40, .f32⟩
  | .hbm, ⟨77, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_cst_1 : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_v4 : Ref sig .tc := ⟨.hbm, 36, rfl⟩
abbrev main_call0_v5 : Ref sig .tc := ⟨.hbm, 37, rfl⟩
abbrev main_call0_cst_2 : Ref sig .tc := ⟨.hbm, 38, rfl⟩
abbrev main_call0_v6 : Ref sig .tc := ⟨.hbm, 39, rfl⟩
abbrev main_call0_v7 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_1 : Ref sig .tc := ⟨.hbm, 50, rfl⟩
abbrev main_v27 : Ref sig .tc := ⟨.hbm, 51, rfl⟩
abbrev main_v28 : Ref sig .tc := ⟨.hbm, 52, rfl⟩
abbrev main_c_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_cst : Ref sig .tc := ⟨.hbm, 63, rfl⟩
abbrev main_call1_v0 : Ref sig .tc := ⟨.hbm, 64, rfl⟩
abbrev main_call1_cst_0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_cst_1 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_v37 : Ref sig .tc := ⟨.hbm, 77, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x64_S100000x64_1_0_0_1_n_n_wf : DotDims.WF S100000x512 S512x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x40_S100000x40_1_0_0_1_n_n_wf : DotDims.WF S100000x64 S64x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.Spec.lean ====
/-
  A two-layer graph network over 100000 nodes, read one node (one row) at a time, on the extended reals.

  Each layer is affine on a node's row: entry `j` of the new row is `∑ k, row k · W k j + b j`. Between the layers
  every node's row is replaced by the sum of the rows of the nodes that point at it (an aggregation along the
  edges, which both programs spell with the same host operations and which is therefore carried as one function and
  never opened). The second layer first sends each entry `h` to `h` when `h` is positive and to `exp h − 1` otherwise;
  the result of the second aggregation is normalised row by row: with `M` the row's maximum, entry `j` becomes
  `(row j − M) − log (∑ k, exp (row k − M))`.
-/
import Idealize.ShloMosaic.Lib.ValueIdx
import Idealize.ShloMosaic.PureOps.Ideal.Laws

noncomputable section

namespace Cert.Spec

open Idealize.ShloMosaic Idealize.ShloMosaic.ValueIdx

/-- One affine layer on one row: entry `j` is `∑ k, row k · W k j + b j`. -/
def lin {K N : ℕ} (row : Fin K → EReal) (W : Fin K → Fin N → EReal) (b : Fin N → EReal) (j : Fin N) : EReal :=
  ∑ k : Fin K, row k * W k j + b j

/-- The layer depends on its input row only through the row's entries. -/
theorem lin_congr {K N : ℕ} {row row' : Fin K → EReal} (e : ∀ k, row k = row' k) (W : Fin K → Fin N → EReal)
    (b : Fin N → EReal) (j : Fin N) : lin row W b j = lin row' W b j := by
  rw [show row = row' from funext e]

/-- The exponential linear unit: the identity on positive numbers, `exp h − 1` elsewhere. -/
def elu (h : EReal) : EReal := if 0 < h then h else Ideal.exp h - 1

/-- A row's maximum, from −∞. -/
def rowMax {N : ℕ} (row : Fin N → EReal) : EReal := (Finset.univ : Finset (Fin N)).fold max ⊥ row

/-- Taking the maximum with −∞ once more changes nothing. -/
theorem max_bot_rowMax {N : ℕ} (row : Fin N → EReal) : max ⊥ (rowMax row) = rowMax row :=
  max_eq_right bot_le

/-- The logarithm of a row's softmax: with `M` the row's maximum, `(row j − M) − log (∑ k, exp (row k − M))`. -/
def lsm {N : ℕ} (row : Fin N → EReal) (j : Fin N) : EReal :=
  (row j - rowMax row) - Ideal.log (∑ k : Fin N, Ideal.exp (row k - rowMax row))

theorem lsm_congr {N : ℕ} {row row' : Fin N → EReal} (e : ∀ k, row k = row' k) (j : Fin N) : lsm row j = lsm row' j := by
  rw [show row = row' from funext e]

/-- The first layer over all nodes. -/
def layer1 (x : FVec Ideal ⟨2, ![100000, 512]⟩ .f32) (W : FVec Ideal ⟨2, ![512, 64]⟩ .f32) (b : Fin 64 → EReal) :
    FVec Ideal ⟨2, ![100000, 64]⟩ .f32 :=
  fun i => lin (fun k : Fin 512 => x (ix2 (i 0 : Fin 100000) k)) (fun k j => W (ix2 k j)) b (i 1 : Fin 64)

/-- The second layer, after the exponential linear unit, over all nodes. -/
def layer2 (h : FVec Ideal ⟨2, ![100000, 64]⟩ .f32) (W : FVec Ideal ⟨2, ![64, 40]⟩ .f32) (b : Fin 40 → EReal) :
    FVec Ideal ⟨2, ![100000, 40]⟩ .f32 :=
  fun i => lin (fun k : Fin 64 => elu (h (ix2 (i 0 : Fin 100000) k))) (fun k j => W (ix2 k j)) b (i 1 : Fin 40)

/-- The row-by-row normalisation over all nodes. -/
def logSoftmax (h : FVec Ideal ⟨2, ![100000, 40]⟩ .f32) : FVec Ideal ⟨2, ![100000, 40]⟩ .f32 :=
  fun i => lsm (fun k : Fin 40 => h (ix2 (i 0 : Fin 100000) k)) (i 1 : Fin 40)

theorem layer1_apply (x : FVec Ideal ⟨2, ![100000, 512]⟩ .f32) (W : FVec Ideal ⟨2, ![512, 64]⟩ .f32) (b : Fin 64 → EReal)
    (r : Fin 100000) (j : Fin 64) :
    layer1 x W b (ix2 r j) = lin (fun k : Fin 512 => x (ix2 r k)) (fun k j => W (ix2 k j)) b j := rfl

theorem layer2_apply (h : FVec Ideal ⟨2, ![100000, 64]⟩ .f32) (W : FVec Ideal ⟨2, ![64, 40]⟩ .f32) (b : Fin 40 → EReal)
    (r : Fin 100000) (j : Fin 40) :
    layer2 h W b (ix2 r j) = lin (fun k : Fin 64 => elu (h (ix2 r k))) (fun k j => W (ix2 k j)) b j := rfl

theorem logSoftmax_apply (h : FVec Ideal ⟨2, ![100000, 40]⟩ .f32) (r : Fin 100000) (j : Fin 40) :
    logSoftmax h (ix2 r j) = lsm (fun k : Fin 40 => h (ix2 r k)) j := rfl

/-! ## The two spellings of the exponential linear unit -/

/-- The number `1` as its f32 word. -/
theorem ofBits_one : Ideal.ofBits .f32 0x3F800000#32 = 1 := by
  simp [Ideal.ofBits, Ideal.ieee, -EReal.coe_mul]; norm_num

/-- −∞ as its f32 word. -/
theorem ofBits_neg_inf : Ideal.ofBits .f32 0xFF800000#32 = ⊥ := by
  simp [Ideal.ofBits, Ideal.ieee]

end Cert.Spec

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Region0.lean ====
/-
  The first launch, read as a whole array.

  The launch walks 25 tiles of 4000 rows. At tile `t` it reads rows `4000 t … 4000 t + 3999` of the node features (all 512
  columns), the whole 512 × 64 weight matrix and the one-row bias, and writes rows `4000 t … 4000 t + 3999` of the result:
  entry `(p, q)` of the tile is `∑ k, x (4000 t + p, k) · W (k, q) + b (0, q)` — the narrowing of both operands before the
  product is the identity on the extended reals, and the product accumulates into zero. The 25 tiles cover all 100000
  rows, so the array the launch leaves is the affine layer of every row.
-/
import proofs.«127312_j40063454937539_1_alg».proof.Proof.Gen.KernelIdeal.Frame
import proofs.«127312_j40063454937539_1_alg».proof.Proof.Spec
import proofs.«127312_j40063454937539_1_alg».proof.Proof.LibDense
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The tile's product contracts the left operand's columns with the right operand's rows. -/
theorem dot_plain : dot_S4000x512_S512x64_S4000x64_1_0_0_1_n_n = DotDims.plain 4000 512 64 := rfl

/-- What a tile stores, at entry `y`: the affine layer of row `y 0` of the tile's rows. -/
theorem pay_apply (x0 : Vec Ideal S4000x512 .f32) (x1 : Vec Ideal S512x64 .f32) (x2 : Vec Ideal S1x64 .f32) (y : S4000x64.Idx) :
    k0_pay1 x0 x1 x2 y
      = Cert.Spec.lin (fun k : Fin 512 => x0 (ix2 (y 0 : Fin 4000) k)) (fun k j => x1 (ix2 k j))
          (fun j : Fin 64 => x2 (ix2 (0 : Fin 1) j)) (y 1 : Fin 64) := by
  obtain ⟨p, q, rfl⟩ : ∃ (p : Fin 4000) (q : Fin 64), y = ix2 p q := ⟨y 0, y 1, eq_ix2 y⟩
  unfold k0_pay1
  show (FloatOps.matmul (F := Ideal) dot_S4000x512_S512x64_S4000x64_1_0_0_1_n_n none (truncf (F := Ideal) .bf16 x0 bitsLt_bf16_f32)
        (truncf (F := Ideal) .bf16 x1 bitsLt_bf16_f32) (constant (F := Ideal) S4000x64 .f32 0x00000000#32) (ix2 p q) : EReal)
      + (broadcastTo S4000x64 (shapeCast S1x64 x2 shapeCasts_S1x64_S1x64) broadcasts_S1x64_S4000x64 (ix2 p q) : EReal) = _
  rw [dot_plain, Cert.LibDense.matmul_plain_zero_apply, broadcastTo_1b_ab_apply, shapeCast_self]
  rfl

/-- The printed index maps over the 25 tiles: the row block moves with the tile, everything else stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Tile `t` of the features is rows `4000 t …` of the array. -/
theorem xblk_apply (c : Dev nD) (t : Fin cfg0.N) (y : S4000x512.Idx) (i : S100000x512.Idx)
    (h0 : (i 0).val = 4000 * t.val + (y 0).val) (h1 : (i 1).val = (y 1).val) :
    (iblk0 V c 0 t : Vec Ideal S4000x512 .f32) y = (V c main_arg0 : S100000x512.Idx → EReal) i := by
  obtain ⟨e0, e1, -⟩ := idx_facts t
  unfold iblk0
  rw [View.read_apply]
  show (V c main_arg0 : S100000x512.Idx → EReal) _ = _
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 512 + 1 * (y 1).val = (i 1).val; rw [e1, h1]; omega

/-- Every tile sees the whole weight matrix. -/
theorem wblk_apply (c : Dev nD) (t : Fin cfg0.N) (y : S512x64.Idx) :
    (iblk0 V c 1 t : Vec Ideal S512x64 .f32) y = (V c main_arg2 : S512x64.Idx → EReal) y := by
  obtain ⟨-, -, e0, e1, -⟩ := idx_facts t
  unfold iblk0
  rw [View.read_apply]
  show (V c main_arg2 : S512x64.Idx → EReal) _ = _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 64 + 1 * (y 1).val = (y 1).val; rw [e1]; omega

/-- Every tile sees the whole bias row. -/
theorem bblk_apply (c : Dev nD) (t : Fin cfg0.N) (y : S1x64.Idx) :
    (iblk0 V c 2 t : Vec Ideal S1x64 .f32) y = (V c main_v4 : S1x64.Idx → EReal) y := by
  obtain ⟨-, -, -, -, e0, e1, -⟩ := idx_facts t
  unfold iblk0
  rw [View.read_apply]
  show (V c main_v4 : S1x64.Idx → EReal) _ = _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The array the launch leaves: the first layer of every row of the features it found. -/
abbrev G (c : Dev nD) : FVec Ideal S100000x64 .f32 :=
  Cert.Spec.layer1 (V c main_arg0) (V c main_arg2) (fun j : Fin 64 => (V c main_v4 : S1x64.Idx → EReal) (ix2 (0 : Fin 1) j))

/-- What tile `t` writes back is tile `t` of that array. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S4000x512) hz, View.ld_unit_zero (S := S512x64) hz, View.ld_unit_zero (S := S1x64) hz]
  obtain ⟨-, -, -, -, -, -, e0, e1⟩ := idx_facts t
  funext y
  refine (pay_apply (iblk0 V c 0 t) (iblk0 V c 1 t) (iblk0 V c 2 t) y).trans ?_
  show _ = G V c (((cfg0.win 3).blk t).view.emb y)
  have hi0 : ((((cfg0.win 3).blk t).view.emb y) 0).val = 4000 * t.val + (y 0).val := by
    show win0_3.index t (0 : Fin 2) * 4000 + 1 * (y 0).val = _; rw [e0]; omega
  have hi1 : ((((cfg0.win 3).blk t).view.emb y) 1).val = (y 1).val := by
    show win0_3.index t (1 : Fin 2) * 64 + 1 * (y 1).val = _; rw [e1]; omega
  show _ = Cert.Spec.lin _ _ _ _
  have hq : ((((cfg0.win 3).blk t).view.emb y) 1 : Fin 64) = (y 1 : Fin 64) := Fin.ext hi1
  rw [hq]
  have hA : (fun k : Fin 512 => (iblk0 V c 0 t : Vec Ideal S4000x512 .f32) (ix2 (y 0 : Fin 4000) k))
      = fun k : Fin 512 => (V c main_arg0 : S100000x512.Idx → EReal) (ix2 ((((cfg0.win 3).blk t).view.emb y) 0 : Fin 100000) k) :=
    funext fun k => xblk_apply V c t (ix2 (y 0 : Fin 4000) k) (ix2 ((((cfg0.win 3).blk t).view.emb y) 0 : Fin 100000) k) hi0 rfl
  have hB : (fun (k : Fin 512) (j : Fin 64) => (iblk0 V c 1 t : Vec Ideal S512x64 .f32) (ix2 k j))
      = fun (k : Fin 512) (j : Fin 64) => (V c main_arg2 : S512x64.Idx → EReal) (ix2 k j) :=
    funext fun k => funext fun j => wblk_apply V c t (ix2 k j)
  have hC : (fun j : Fin 64 => (iblk0 V c 2 t : Vec Ideal S1x64 .f32) (ix2 (0 : Fin 1) j))
      = fun j : Fin 64 => (V c main_v4 : S1x64.Idx → EReal) (ix2 (0 : Fin 1) j) :=
    funext fun j => bblk_apply V c t (ix2 (0 : Fin 1) j)
  exact congrFun (congr (congr (congrArg (Cert.Spec.lin (K := 512) (N := 64)) hA) hB) hC) _

/-- An index of the array is in tile `t` iff each coordinate is in the tile's range on its axis. -/
theorem mem_blk (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v5).slice (win0_3.rect t)).set ↔ _
  rw [View.set_slice_whole, Rect.mem_set_unit]
  exact Iff.rfl

/-- The 25 tiles cover the array: row `r` is in tile `r / 4000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_3 _, ?_⟩
  rw [mem_blk]
  obtain ⟨-, -, -, -, -, -, e0, e1⟩ := idx_facts ⟨(i 0).val / 4000, by rw [hN]; omega⟩
  intro a
  match a with
  | ⟨0, _⟩ => show win0_3.index _ (0 : Fin 2) * 4000 ≤ (i 0).val ∧ (i 0).val < win0_3.index _ (0 : Fin 2) * 4000 + 4000; rw [e0]; show (i 0).val / 4000 * 4000 ≤ (i 0).val ∧ (i 0).val < (i 0).val / 4000 * 4000 + 4000; omega
  | ⟨1, _⟩ => show win0_3.index _ (1 : Fin 2) * 64 ≤ (i 1).val ∧ (i 1).val < win0_3.index _ (1 : Fin 2) * 64 + 64; rw [e1]; omega

/-- THE ARRAY after the launch. -/
theorem final (c : Dev nD) : (dat0 V c).arrAt 3 cfg0.N = G V c :=
  (dat0 V c).arrAt_eq_of_cover 3 (G V c) (fun t _ => flushed_eq V c t) cover

end Cert.KernelIdeal.Region0

end
-- ==== Proof.EluForms.lean ====
/-
  The exponential linear unit as the two programs spell it, one number at a time.

  A comparison `h > 0` on the extended reals is the bit `1` exactly when `0 < h`, and a select on that bit takes its first
  operand then and its second otherwise. One program writes `select (h > 0) h (exp h − 1)`; the other writes
  `select (h > 0) h (1 · (exp (select (h > 0) 0 h) − 1))`: where `h` is not positive the inner select is `h` again, and
  the product with `1` changes nothing.
-/
import proofs.«127312_j40063454937539_1_alg».proof.Proof.Spec

noncomputable section

namespace Cert.Spec

open Idealize.ShloMosaic

/-- A select on the bit of `h > 0`. -/
theorem select_ogt_zero {α : Type} (h : EReal) (a b : α) :
    Scalar.select (Ideal.cmp .ogt h 0) a b = if 0 < h then a else b := by
  unfold Ideal.cmp Scalar.select
  by_cases hp : 0 < h
  · simp [hp]
  · simp [hp]

/-- The direct spelling: `select (h > 0) h (exp h − 1)`, with the zero and the one as their f32 words. -/
theorem elu_direct (h : EReal) :
    Scalar.select (FloatOps.cmpf (F := Ideal) (φ := .f32) .ogt h (Ideal.ofBits .f32 0x00000000#32)) h
        (Ideal.exp h - Ideal.ofBits .f32 0x3F800000#32) = elu h := by
  rw [Ideal.cmpf_def, Ideal.ofBits_zero_f32, ofBits_one, select_ogt_zero]
  rfl

/-- The guarded spelling: `select (h > 0) h (1 · (exp (select (h > 0) 0 h) − 1))`. -/
theorem elu_guarded (h : EReal) :
    Scalar.select (FloatOps.cmpf (F := Ideal) (φ := .f32) .ogt h (Ideal.ofBits .f32 0x00000000#32)) h
        (Ideal.ofBits .f32 0x3F800000#32 *
          (Ideal.exp (Scalar.select (FloatOps.cmpf (F := Ideal) (φ := .f32) .ogt h (Ideal.ofBits .f32 0x00000000#32))
            (Ideal.ofBits .f32 0x00000000#32) h) - 1)) = elu h := by
  rw [Ideal.cmpf_def, Ideal.ofBits_zero_f32, ofBits_one, select_ogt_zero, select_ogt_zero]
  unfold elu
  by_cases hp : 0 < h
  · rw [if_pos hp, if_pos hp]
  · rw [if_neg hp, if_neg hp, if_neg hp, one_mul]

end Cert.Spec

end
-- ==== Proof.Region1.lean ====
/-
  The second launch, read as a whole array.

  The launch walks 25 tiles of 4000 rows of the aggregated first layer. At tile `t` it reads rows `4000 t … 4000 t + 3999`
  (all 64 columns), the whole 64 × 40 weight matrix and the one-row bias. Each entry `h` of the tile first becomes `h` where
  `h > 0` and `exp h − 1` elsewhere; entry `(p, q)` of what the tile writes is then `∑ k, elu (h (4000 t + p, k)) · W (k, q) + b (0, q)`
  — the narrowing before the product is the identity on the extended reals, and the product accumulates into zero. The
  25 tiles cover all 100000 rows.
-/
import proofs.«127312_j40063454937539_1_alg».proof.Proof.Gen.KernelIdeal.Frame
import proofs.«127312_j40063454937539_1_alg».proof.Proof.Spec
import proofs.«127312_j40063454937539_1_alg».proof.Proof.LibDense
import proofs.«127312_j40063454937539_1_alg».proof.Proof.EluForms
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The tile's product contracts the left operand's columns with the right operand's rows. -/
theorem dot_plain : dot_S4000x64_S64x40_S4000x40_1_0_0_1_n_n = DotDims.plain 4000 64 40 := rfl

/-- What a tile stores, at entry `y`: the affine layer of row `y 0` of the tile's rows after the exponential linear unit. -/
theorem pay_apply (x0 : Vec Ideal S4000x64 .f32) (x1 : Vec Ideal S64x40 .f32) (x2 : Vec Ideal S1x40 .f32) (y : S4000x40.Idx) :
    k1_pay1 x0 x1 x2 y
      = Cert.Spec.lin (fun k : Fin 64 => Cert.Spec.elu (x0 (ix2 (y 0 : Fin 4000) k))) (fun k j => x1 (ix2 k j))
          (fun j : Fin 40 => x2 (ix2 (0 : Fin 1) j)) (y 1 : Fin 40) := by
  obtain ⟨p, q, rfl⟩ : ∃ (p : Fin 4000) (q : Fin 40), y = ix2 p q := ⟨y 0, y 1, eq_ix2 y⟩
  unfold k1_pay1
  show (FloatOps.matmul (F := Ideal) dot_S4000x64_S64x40_S4000x40_1_0_0_1_n_n none
        (truncf (F := Ideal) .bf16
          (select (cmpf (F := Ideal) .ogt (shapeCast S4000x64 x0 shapeCasts_S4000x64_S4000x64)
              (broadcast S4000x64 (Scalar.ofBits (F := Ideal) .f32 0x00000000#32)))
            (shapeCast S4000x64 x0 shapeCasts_S4000x64_S4000x64)
            (subf (F := Ideal) (exp (F := Ideal) (shapeCast S4000x64 x0 shapeCasts_S4000x64_S4000x64))
              (broadcast S4000x64 (Scalar.ofBits (F := Ideal) .f32 0x3F800000#32))))
          bitsLt_bf16_f32)
        (truncf (F := Ideal) .bf16 x1 bitsLt_bf16_f32) (constant (F := Ideal) S4000x40 .f32 0x00000000#32) (ix2 p q) : EReal)
      + (broadcastTo S4000x40 (shapeCast S1x40 x2 shapeCasts_S1x40_S1x40) broadcasts_S1x40_S4000x40 (ix2 p q) : EReal) = _
  rw [dot_plain, Cert.LibDense.matmul_plain_zero_apply, broadcastTo_1b_ab_apply, shapeCast_self, shapeCast_self]
  unfold Cert.Spec.lin
  congr 1
  refine Finset.sum_congr rfl fun k _ => ?_
  congr 1
  exact Cert.Spec.elu_direct (x0 (ix2 p k))

/-- The printed index maps over the 25 tiles: the row block moves with the tile, everything else stays at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Tile `t` of the aggregated first layer is rows `4000 t …` of the array. -/
theorem xblk_apply (c : Dev nD) (t : Fin cfg1.N) (y : S4000x64.Idx) (i : S100000x64.Idx)
    (h0 : (i 0).val = 4000 * t.val + (y 0).val) (h1 : (i 1).val = (y 1).val) :
    (iblk1 V c 0 t : Vec Ideal S4000x64 .f32) y = (V c main_v15 : S100000x64.Idx → EReal) i := by
  obtain ⟨e0, e1, -⟩ := idx_facts t
  unfold iblk1
  rw [View.read_apply]
  show (V c main_v15 : S100000x64.Idx → EReal) _ = _
  congr 1
  funext a
  apply Fin.ext
  match a with
  | ⟨0, _⟩ => show win1_0.index t (0 : Fin 2) * 4000 + 1 * (y 0).val = (i 0).val; rw [e0, h0]; omega
  | ⟨1, _⟩ => show win1_0.index t (1 : Fin 2) * 64 + 1 * (y 1).val = (i 1).val; rw [e1, h1]; omega

/-- Every tile sees the whole weight matrix. -/
theorem wblk_apply (c : Dev nD) (t : Fin cfg1.N) (y : S64x40.Idx) :
    (iblk1 V c 1 t : Vec Ideal S64x40 .f32) y = (V c main_arg4 : S64x40.Idx → EReal) y := by
  obtain ⟨-, -, e0, e1, -⟩ := idx_facts t
  unfold iblk1
  rw [View.read_apply]
  show (V c main_arg4 : S64x40.Idx → EReal) _ = _
  congr 1
  funext a
  apply Fin.ext
  match a with
  | ⟨0, _⟩ => show win1_1.index t (0 : Fin 2) * 64 + 1 * (y 0).val = (y 0).val; rw [e0]; omega
  | ⟨1, _⟩ => show win1_1.index t (1 : Fin 2) * 40 + 1 * (y 1).val = (y 1).val; rw [e1]; omega

/-- Every tile sees the whole bias row. -/
theorem bblk_apply (c : Dev nD) (t : Fin cfg1.N) (y : S1x40.Idx) :
    (iblk1 V c 2 t : Vec Ideal S1x40 .f32) y = (V c main_v16 : S1x40.Idx → EReal) y := by
  obtain ⟨-, -, -, -, e0, e1, -⟩ := idx_facts t
  unfold iblk1
  rw [View.read_apply]
  show (V c main_v16 : S1x40.Idx → EReal) _ = _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 40 + 1 * (y 1).val = (y 1).val; rw [e1]; omega

/-- The array the launch leaves: the second layer of every row of the aggregated first layer it found. -/
abbrev G (c : Dev nD) : FVec Ideal S100000x40 .f32 :=
  Cert.Spec.layer2 (V c main_v15) (V c main_arg4) (fun j : Fin 40 => (V c main_v16 : S1x40.Idx → EReal) (ix2 (0 : Fin 1) j))

/-- What tile `t` writes back is tile `t` of that array. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S4000x64) hz, View.ld_unit_zero (S := S64x40) hz, View.ld_unit_zero (S := S1x40) hz]
  obtain ⟨-, -, -, -, -, -, e0, e1⟩ := idx_facts t
  funext y
  refine (pay_apply (iblk1 V c 0 t) (iblk1 V c 1 t) (iblk1 V c 2 t) y).trans ?_
  show _ = G V c (((cfg1.win 3).blk t).view.emb y)
  have hi0 : ((((cfg1.win 3).blk t).view.emb y) 0).val = 4000 * t.val + (y 0).val := by
    show win1_3.index t (0 : Fin 2) * 4000 + 1 * (y 0).val = _; rw [e0]; omega
  have hi1 : ((((cfg1.win 3).blk t).view.emb y) 1).val = (y 1).val := by
    show win1_3.index t (1 : Fin 2) * 40 + 1 * (y 1).val = _; rw [e1]; omega
  show _ = Cert.Spec.lin _ _ _ _
  have hq : ((((cfg1.win 3).blk t).view.emb y) 1 : Fin 40) = (y 1 : Fin 40) := Fin.ext hi1
  rw [hq]
  have hA : (fun k : Fin 64 => Cert.Spec.elu ((iblk1 V c 0 t : Vec Ideal S4000x64 .f32) (ix2 (y 0 : Fin 4000) k)))
      = fun k : Fin 64 => Cert.Spec.elu ((V c main_v15 : S100000x64.Idx → EReal) (ix2 ((((cfg1.win 3).blk t).view.emb y) 0 : Fin 100000) k)) :=
    funext fun k => congrArg Cert.Spec.elu
      (xblk_apply V c t (ix2 (y 0 : Fin 4000) k) (ix2 ((((cfg1.win 3).blk t).view.emb y) 0 : Fin 100000) k) hi0 rfl)
  have hB : (fun (k : Fin 64) (j : Fin 40) => (iblk1 V c 1 t : Vec Ideal S64x40 .f32) (ix2 k j))
      = fun (k : Fin 64) (j : Fin 40) => (V c main_arg4 : S64x40.Idx → EReal) (ix2 k j) :=
    funext fun k => funext fun j => wblk_apply V c t (ix2 k j)
  have hC : (fun j : Fin 40 => (iblk1 V c 2 t : Vec Ideal S1x40 .f32) (ix2 (0 : Fin 1) j))
      = fun j : Fin 40 => (V c main_v16 : S1x40.Idx → EReal) (ix2 (0 : Fin 1) j) :=
    funext fun j => bblk_apply V c t (ix2 (0 : Fin 1) j)
  exact congrFun (congr (congr (congrArg (Cert.Spec.lin (K := 64) (N := 40)) hA) hB) hC) _

/-- An index of the array is in tile `t` iff each coordinate is in the tile's range on its axis. -/
theorem mem_blk (t : Fin cfg1.N) (i : S100000x40.Idx) :
    i ∈ ((cfg1.win 3).blk t).view.set ↔ ∀ a : Fin 2, win1_3.index t a * S4000x40.size a ≤ (i a).val ∧ (i a).val < win1_3.index t a * S4000x40.size a + S4000x40.size a := by
  show i ∈ ((View.whole main_v17).slice (win1_3.rect t)).set ↔ _
  rw [View.set_slice_whole, Rect.mem_set_unit]
  exact Iff.rfl

/-- The 25 tiles cover the array: row `r` is in tile `r / 4000`. -/
theorem cover (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 25 := N_1
  refine ⟨⟨(i 0).val / 4000, by rw [hN]; omega⟩, flush1_3 _, ?_⟩
  rw [mem_blk]
  obtain ⟨-, -, -, -, -, -, e0, e1⟩ := idx_facts ⟨(i 0).val / 4000, by rw [hN]; omega⟩
  intro a
  match a with
  | ⟨0, _⟩ => show win1_3.index _ (0 : Fin 2) * 4000 ≤ (i 0).val ∧ (i 0).val < win1_3.index _ (0 : Fin 2) * 4000 + 4000; rw [e0]; show (i 0).val / 4000 * 4000 ≤ (i 0).val ∧ (i 0).val < (i 0).val / 4000 * 4000 + 4000; omega
  | ⟨1, _⟩ => show win1_3.index _ (1 : Fin 2) * 40 ≤ (i 1).val ∧ (i 1).val < win1_3.index _ (1 : Fin 2) * 40 + 40; rw [e1]; omega

/-- THE ARRAY after the launch. -/
theorem final (c : Dev nD) : (dat1 V c).arrAt 3 cfg1.N = G V c :=
  (dat1 V c).arrAt_eq_of_cover 3 (G V c) (fun t _ => flushed_eq V c t) cover

end Cert.KernelIdeal.Region1

end
-- ==== Proof.LibRows.lean ====
/-
  Row statistics of a matrix, and a column of them laid back along the rows.

  For an `a × b` array on the extended reals: its maximum along each row, from the accumulator's value, at row `p` is the fold
  of `max` over `k` of the entries `(p, k)`; its sum along each row at row `p` is `∑ k` of the entries `(p, k)`. A vector of `a`
  such numbers recast as a column `a × 1` reads at `(p, 0)` its entry `p`, and the column laid along `b` columns reads at
  `(p, q)` the column's entry `p`. Nothing here depends on the extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRows

open Idealize.ShloMosaic Idealize.ShloMosaic.ValueIdx

variable {α : Type}

/-- An `[a]` array recast as a column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` laid along `b` columns reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index a reduction along the rows inserts at row `p`, column `k`, is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- The maximum along the rows, from the accumulator's value, at row `p`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  show (Finset.univ : Finset (Fin b)).fold max _ (fun k => src (h.lift (ix1 p) k)) = _
  have e : (fun k : Fin b => src (h.lift (ix1 p) k)) = fun k => src (ix2 p k) :=
    funext fun k => congrArg src (lift_row h p k)
  exact congrArg (fun f : Fin b → EReal => (Finset.univ : Finset (Fin b)).fold max (FloatOps.ofBits (F := Ideal) φ acc) f) e

/-- The sum along the rows at row `p`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  show ∑ k : Fin b, src (h.lift (ix1 p) k) = _
  exact Finset.sum_congr rfl fun k _ => congrArg src (lift_row h p k)

end Cert.LibRows

end
-- ==== Proof.Region2.lean ====
/-
  The third launch, read as a whole array.

  The launch walks 25 tiles of 4000 rows of the aggregated second layer, 40 columns each. For each row of a tile it takes
  the row's maximum `M` (from −∞), subtracts it from every entry, sums the exponentials of the differences along the row,
  and writes `(x − M) − log (that sum)`: the logarithm of the row's softmax. A row's statistics depend on that row only,
  and the 25 tiles cover all 100000 rows, so the array the launch leaves is the row-by-row normalisation of the array
  it found.
-/
import proofs.«127312_j40063454937539_1_alg».proof.Proof.Gen.KernelIdeal.Frame
import proofs.«127312_j40063454937539_1_alg».proof.Proof.Spec
import proofs.«127312_j40063454937539_1_alg».proof.Proof.LibRows
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The maxima of a tile's rows. -/
def rmax (x0 : Vec Ideal S4000x40 .f32) : FVec Ideal S4000 .f32 :=
  multiReduction .maximumf [1] S4000 x0 0xFF800000#32 reduces_S4000x40_S4000 (.inl rfl) rfl

/-- The tile with each row's maximum subtracted. -/
def shifted (x0 : Vec Ideal S4000x40 .f32) : FVec Ideal S4000x40 .f32 :=
  subf x0 (broadcastTo S4000x40 (shapeCast S4000x1 (rmax x0) shapeCasts_S4000_S4000x1) broadcasts_S4000x1_S4000x40)

/-- The sums of the exponentials along the rows. -/
def rsum (x0 : Vec Ideal S4000x40 .f32) : FVec Ideal S4000 .f32 :=
  multiReduction .add [1] S4000 (exp (shifted x0)) 0x00000000#32 reduces_S4000x40_S4000 (.inl rfl) rfl

/-- What a tile stores, in those terms. -/
theorem pay_eq (x0 : Vec Ideal S4000x40 .f32) :
    k2_pay1 x0 = subf (shifted x0)
      (broadcastTo S4000x40 (log (shapeCast S4000x1 (rsum x0) shapeCasts_S4000_S4000x1)) broadcasts_S4000x1_S4000x40) := by
  unfold k2_pay1 rsum shifted rmax
  dsimp only
  rw [shapeCast_self]

theorem shifted_apply (x0 : Vec Ideal S4000x40 .f32) (p : Fin 4000) (q : Fin 40) :
    shifted x0 (ix2 p q) = x0 (ix2 p q) - Cert.Spec.rowMax (fun k : Fin 40 => x0 (ix2 p k)) := by
  unfold shifted rmax
  rw [subf_apply, Cert.LibRows.broadcastTo_a1_ab_apply, Cert.LibRows.shapeCast_a_a1_apply]
  refine congrArg (fun z : EReal => x0 (ix2 p q) - z) ?_
  refine (Cert.LibRows.rowMax_apply (a := 4000) (b := 40) (φ := .f32) x0 0xFF800000#32 reduces_S4000x40_S4000 (.inl rfl) rfl p).trans ?_
  show Finset.fold max (Ideal.ofBits .f32 0xFF800000#32) _ _ = _
  rw [Cert.Spec.ofBits_neg_inf]
  rfl

theorem rsum_apply (x0 : Vec Ideal S4000x40 .f32) (p : Fin 4000) :
    rsum x0 (ix1 p) = ∑ k : Fin 40, Ideal.exp (x0 (ix2 p k) - Cert.Spec.rowMax (fun k : Fin 40 => x0 (ix2 p k))) := by
  unfold rsum
  refine (Cert.LibRows.rowSum_apply (a := 4000) (b := 40) (φ := .f32) (exp (shifted x0)) 0x00000000#32 reduces_S4000x40_S4000 (.inl rfl) rfl p).trans ?_
  refine Finset.sum_congr rfl fun k _ => ?_
  show Ideal.exp (shifted x0 (ix2 p k)) = _
  rw [shifted_apply]

/-- What a tile stores, at entry `y`: the logarithm of the softmax of row `y 0` of the tile. -/
theorem pay_apply (x0 : Vec Ideal S4000x40 .f32) (y : S4000x40.Idx) :
    k2_pay1 x0 y = Cert.Spec.lsm (fun k : Fin 40 => x0 (ix2 (y 0 : Fin 4000) k)) (y 1 : Fin 40) := by
  obtain ⟨p, q, rfl⟩ : ∃ (p : Fin 4000) (q : Fin 40), y = ix2 p q := ⟨y 0, y 1, eq_ix2 y⟩
  rw [pay_eq, subf_apply, shifted_apply, Cert.LibRows.broadcastTo_a1_ab_apply]
  show _ - Ideal.log (shapeCast S4000x1 (rsum x0) shapeCasts_S4000_S4000x1 (ix2 p (0 : Fin 1))) = _
  rw [Cert.LibRows.shapeCast_a_a1_apply, rsum_apply]
  rfl

/-- The printed index maps over the 25 tiles: the row block moves with the tile, the column block stays at 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Tile `t` of the input is rows `4000 t …` of the array. -/
theorem xblk_apply (c : Dev nD) (t : Fin cfg2.N) (y : S4000x40.Idx) (i : S100000x40.Idx)
    (h0 : (i 0).val = 4000 * t.val + (y 0).val) (h1 : (i 1).val = (y 1).val) :
    (iblk2 V c 0 t : Vec Ideal S4000x40 .f32) y = (V c main_v27 : S100000x40.Idx → EReal) i := by
  obtain ⟨e0, e1, -⟩ := idx_facts t
  unfold iblk2
  rw [View.read_apply]
  show (V c main_v27 : S100000x40.Idx → EReal) _ = _
  congr 1
  funext a
  apply Fin.ext
  match a with
  | ⟨0, _⟩ => show win2_0.index t (0 : Fin 2) * 4000 + 1 * (y 0).val = (i 0).val; rw [e0, h0]; omega
  | ⟨1, _⟩ => show win2_0.index t (1 : Fin 2) * 40 + 1 * (y 1).val = (i 1).val; rw [e1, h1]; omega

/-- The array the launch leaves: the row-by-row normalisation of the array it found. -/
abbrev G (c : Dev nD) : FVec Ideal S100000x40 .f32 := Cert.Spec.logSoftmax (V c main_v27)

/-- What tile `t` writes back is tile `t` of that array. -/
theorem flushed_eq (c : Dev nD) (t : Fin cfg2.N) :
    (dat2 V c).flushed 1 t = ((cfg2.win 1).blk t).view.read (Elt Ideal) (G V c) := by
  show (cfg2.win 1).cut (grid2.coords t) ((dat2 V c).after 1 t) = _
  rw [after2_1]
  unfold out2_1
  rw [View.canon_unit_zero hz]
  simp only [View.ld_unit_zero (S := S4000x40) hz]
  obtain ⟨-, -, e0, e1⟩ := idx_facts t
  funext y
  refine (pay_apply (iblk2 V c 0 t) y).trans ?_
  show _ = G V c (((cfg2.win 1).blk t).view.emb y)
  have hi0 : ((((cfg2.win 1).blk t).view.emb y) 0).val = 4000 * t.val + (y 0).val := by
    show win2_1.index t (0 : Fin 2) * 4000 + 1 * (y 0).val = _; rw [e0]; omega
  have hi1 : ((((cfg2.win 1).blk t).view.emb y) 1).val = (y 1).val := by
    show win2_1.index t (1 : Fin 2) * 40 + 1 * (y 1).val = _; rw [e1]; omega
  show _ = Cert.Spec.lsm _ _
  have hq : ((((cfg2.win 1).blk t).view.emb y) 1 : Fin 40) = (y 1 : Fin 40) := Fin.ext hi1
  rw [hq]
  have hA : (fun k : Fin 40 => (iblk2 V c 0 t : Vec Ideal S4000x40 .f32) (ix2 (y 0 : Fin 4000) k))
      = fun k : Fin 40 => (V c main_v27 : S100000x40.Idx → EReal) (ix2 ((((cfg2.win 1).blk t).view.emb y) 0 : Fin 100000) k) :=
    funext fun k => xblk_apply V c t (ix2 (y 0 : Fin 4000) k) (ix2 ((((cfg2.win 1).blk t).view.emb y) 0 : Fin 100000) k) hi0 rfl
  exact congrFun (congrArg (Cert.Spec.lsm (N := 40)) hA) _

/-- An index of the array is in tile `t` iff each coordinate is in the tile's range on its axis. -/
theorem mem_blk (t : Fin cfg2.N) (i : S100000x40.Idx) :
    i ∈ ((cfg2.win 1).blk t).view.set ↔ ∀ a : Fin 2, win2_1.index t a * S4000x40.size a ≤ (i a).val ∧ (i a).val < win2_1.index t a * S4000x40.size a + S4000x40.size a := by
  show i ∈ ((View.whole main_v28).slice (win2_1.rect t)).set ↔ _
  rw [View.set_slice_whole, Rect.mem_set_unit]
  exact Iff.rfl

/-- The 25 tiles cover the array: row `r` is in tile `r / 4000`. -/
theorem cover (i : S100000x40.Idx) : ∃ t : Fin cfg2.N, (cfg2.win 1).flush t = true ∧ i ∈ ((cfg2.win 1).blk t).view.set := by
  have hi0 : (i 0).val < 100000 := (i 0).isLt
  have hi1 : (i 1).val < 40 := (i 1).isLt
  have hN : cfg2.N = 25 := N_2
  refine ⟨⟨(i 0).val / 4000, by rw [hN]; omega⟩, flush2_1 _, ?_⟩
  rw [mem_blk]
  obtain ⟨-, -, e0, e1⟩ := idx_facts ⟨(i 0).val / 4000, by rw [hN]; omega⟩
  intro a
  match a with
  | ⟨0, _⟩ => show win2_1.index _ (0 : Fin 2) * 4000 ≤ (i 0).val ∧ (i 0).val < win2_1.index _ (0 : Fin 2) * 4000 + 4000; rw [e0]; show (i 0).val / 4000 * 4000 ≤ (i 0).val ∧ (i 0).val < (i 0).val / 4000 * 4000 + 4000; omega
  | ⟨1, _⟩ => show win2_1.index _ (1 : Fin 2) * 40 ≤ (i 1).val ∧ (i 1).val < win2_1.index _ (1 : Fin 2) * 40 + 40; rw [e1]; omega

/-- THE ARRAY after the launch. -/
theorem final (c : Dev nD) : (dat2 V c).arrAt 1 cfg2.N = G V c :=
  (dat2 V c).arrAt_eq_of_cover 1 (G V c) (fun t _ => flushed_eq V c t) cover

end Cert.KernelIdeal.Region2

end
-- ==== Proof.KValue.lean ====
/-
  The idealized kernel's result as one function of its arguments.

  @main alternates stretches of host operations with the three launches. Reading the buffers at each boundary: the first
  stretch cuts the edge list into its source row and its destination row and lays the first bias out as one row; the first
  launch leaves the first layer of every node; the second stretch aggregates it along the edges (a source index below zero
  counted from the end, the sources' rows gathered, and added into a zero array at the destinations' rows) and lays the
  second bias out as one row; the second launch leaves the second layer; the third stretch aggregates again; the third
  launch normalises row by row. The aggregation is carried as one function of the two index rows and the array, and is
  never opened.
-/
import proofs.«127312_j40063454937539_1_alg».proof.Proof.Gen.KernelIdeal.Frame
import proofs.«127312_j40063454937539_1_alg».proof.Proof.Spec
import proofs.«127312_j40063454937539_1_alg».proof.Proof.Region0
import proofs.«127312_j40063454937539_1_alg».proof.Proof.Region1
import proofs.«127312_j40063454937539_1_alg».proof.Proof.Region2
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.StableHlo

namespace Cert.KernelIdeal.KValue

open Cert.KernelIdeal Cert.KernelIdeal.Gen

/-! ## The host stretches' functions -/

/-- The edges' source nodes: row 0 of the edge list. -/
def srcRaw (e : IVec S2x3200000 32) : IVec S3200000 32 :=
  shapeCast S3200000 (extractStridedSlice S1x3200000 ![0, 0] e slices_S2x3200000_S1x3200000_0_0) shapeCasts_S1x3200000_S3200000

/-- The edges' destination nodes: row 1 of the edge list. -/
def dstRaw (e : IVec S2x3200000 32) : IVec S3200000 32 :=
  shapeCast S3200000 (extractStridedSlice S1x3200000 ![1, 0] e slices_S2x3200000_S1x3200000_1_0) shapeCasts_S1x3200000_S3200000

/-- The gather's start indices: a source index below zero is counted from the end. -/
def srcIdx (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The scatter's indices: the destinations as a column. -/
def dstIdx (d : IVec S3200000 32) : IVec S3200000x1 32 :=
  broadcastInDim S3200000x1 ![0] bcast_S3200000_S3200000x1_0 d

variable {F : FTy → Type} [FloatOps F]

/-- The aggregation along the edges at width 64: the sources' rows added into a zero array at the destinations' rows. -/
def agg64 (s d : IVec S3200000 32) (h : FVec F S100000x64 .f32) : FVec F S100000x64 .f32 :=
  Host.scatterAdd scatter_S100000x64_S3200000x1_S3200000x64_1_0_0_1
    (broadcastInDim S100000x64 ![] bcast_S_S100000x64 (constant S_ .f32 0x00000000#32)) (dstIdx d)
    (Host.gather gather_S100000x64_S3200000x1_S3200000x64_1_0_n_n_0_1_164 h (srcIdx s))

/-- The same at width 40. -/
def agg40 (s d : IVec S3200000 32) (h : FVec F S100000x40 .f32) : FVec F S100000x40 .f32 :=
  Host.scatterAdd scatter_S100000x40_S3200000x1_S3200000x40_1_0_0_1
    (broadcastInDim S100000x40 ![] bcast_S_S100000x40 (constant S_ .f32 0x00000000#32)) (dstIdx d)
    (Host.gather gather_S100000x40_S3200000x1_S3200000x40_1_0_n_n_0_1_140 h (srcIdx s))

/-! ## Each stretch read at the buffers the launches and the later stretches take, from any contents -/

section Stretches

variable (Vv : Valuation τ sig (Elt F))

theorem ops0_v1 : after (hostOps0 (F := F)) Vv (Proc.devRef .tc main_v1) = srcRaw (Vv (Proc.devRef .tc main_arg1)) := by
  after_results <;> rfl
theorem ops0_v3 : after (hostOps0 (F := F)) Vv (Proc.devRef .tc main_v3) = dstRaw (Vv (Proc.devRef .tc main_arg1)) := by
  after_results <;> rfl
theorem ops0_v4 : after (hostOps0 (F := F)) Vv (Proc.devRef .tc main_v4)
    = shapeCast S1x64 (Vv (Proc.devRef .tc main_arg3)) shapeCasts_S64_S1x64 := by
  after_results <;> rfl
theorem ops0_arg0 : after (hostOps0 (F := F)) Vv (Proc.devRef .tc main_arg0) = Vv (Proc.devRef .tc main_arg0) := by
  after_results <;> rfl
theorem ops0_arg2 : after (hostOps0 (F := F)) Vv (Proc.devRef .tc main_arg2) = Vv (Proc.devRef .tc main_arg2) := by
  after_results <;> rfl
theorem ops0_arg4 : after (hostOps0 (F := F)) Vv (Proc.devRef .tc main_arg4) = Vv (Proc.devRef .tc main_arg4) := by
  after_results <;> rfl
theorem ops0_arg5 : after (hostOps0 (F := F)) Vv (Proc.devRef .tc main_arg5) = Vv (Proc.devRef .tc main_arg5) := by
  after_results <;> rfl

theorem ops1_v15 : after (hostOps1 (F := F)) Vv (Proc.devRef .tc main_v15)
    = agg64 (Vv (Proc.devRef .tc main_v1)) (Vv (Proc.devRef .tc main_v3)) (Vv (Proc.devRef .tc main_v5)) := by
  after_results <;> rfl
theorem ops1_v16 : after (hostOps1 (F := F)) Vv (Proc.devRef .tc main_v16)
    = shapeCast S1x40 (Vv (Proc.devRef .tc main_arg5)) shapeCasts_S40_S1x40 := by
  after_results <;> rfl
theorem ops1_v1 : after (hostOps1 (F := F)) Vv (Proc.devRef .tc main_v1) = Vv (Proc.devRef .tc main_v1) := by
  after_results <;> rfl
theorem ops1_v3 : after (hostOps1 (F := F)) Vv (Proc.devRef .tc main_v3) = Vv (Proc.devRef .tc main_v3) := by
  after_results <;> rfl
theorem ops1_arg4 : after (hostOps1 (F := F)) Vv (Proc.devRef .tc main_arg4) = Vv (Proc.devRef .tc main_arg4) := by
  after_results <;> rfl

theorem ops2_v27 : after (hostOps2 (F := F)) Vv (Proc.devRef .tc main_v27)
    = agg40 (Vv (Proc.devRef .tc main_v1)) (Vv (Proc.devRef .tc main_v3)) (Vv (Proc.devRef .tc main_v17)) := by
  after_results <;> rfl

end Stretches

/-! ## The boundaries, one after the other -/

variable (m : (ℓ : Loc nD τ sig) → Buf (Elt Ideal) ℓ) (ρ : Dev nD → PrngReg)

/-- The idealized kernel's result, as a function of the six arguments. -/
def result (x : FVec Ideal S100000x512 .f32) (e : IVec S2x3200000 32) (w1 : FVec Ideal S512x64 .f32) (b1 : FVec Ideal S64 .f32)
    (w2 : FVec Ideal S64x40 .f32) (b2 : FVec Ideal S40 .f32) : FVec Ideal S100000x40 .f32 :=
  Cert.Spec.logSoftmax (agg40 (srcRaw e) (dstRaw e)
    (Cert.Spec.layer2 (agg64 (srcRaw e) (dstRaw e) (Cert.Spec.layer1 x w1 (fun j : Fin 64 => b1 (ix1 j)))) w2 (fun j : Fin 40 => b2 (ix1 j))))

theorem W1_v1 (c : Dev nD) : W1 m ρ c (Proc.devRef .tc main_v1) = srcRaw (m ((c : Thread nD τ).loc main_arg1)) :=
  ops0_v1 (W0 m ρ c)
theorem W1_v3 (c : Dev nD) : W1 m ρ c (Proc.devRef .tc main_v3) = dstRaw (m ((c : Thread nD τ).loc main_arg1)) :=
  ops0_v3 (W0 m ρ c)
theorem W1_v4 (c : Dev nD) : W1 m ρ c (Proc.devRef .tc main_v4)
    = shapeCast S1x64 (m ((c : Thread nD τ).loc main_arg3)) shapeCasts_S64_S1x64 := ops0_v4 (W0 m ρ c)
theorem W1_arg0 (c : Dev nD) : W1 m ρ c (Proc.devRef .tc main_arg0) = m ((c : Thread nD τ).loc main_arg0) := ops0_arg0 (W0 m ρ c)
theorem W1_arg2 (c : Dev nD) : W1 m ρ c (Proc.devRef .tc main_arg2) = m ((c : Thread nD τ).loc main_arg2) := ops0_arg2 (W0 m ρ c)
theorem W1_arg4 (c : Dev nD) : W1 m ρ c (Proc.devRef .tc main_arg4) = m ((c : Thread nD τ).loc main_arg4) := ops0_arg4 (W0 m ρ c)
theorem W1_arg5 (c : Dev nD) : W1 m ρ c (Proc.devRef .tc main_arg5) = m ((c : Thread nD τ).loc main_arg5) := ops0_arg5 (W0 m ρ c)

/-- After the first launch: the first layer of every node. -/
theorem W2_v5 (c : Dev nD) : W2 m ρ c (Proc.devRef .tc main_v5)
    = Cert.Spec.layer1 (m ((c : Thread nD τ).loc main_arg0)) (m ((c : Thread nD τ).loc main_arg2))
        (fun j : Fin 64 => (m ((c : Thread nD τ).loc main_arg3) : S64.Idx → EReal) (ix1 j)) := by
  refine (W2_arr m ρ c 3).trans ((Cert.KernelIdeal.Region0.final (V1 m ρ) c).trans ?_)
  show Cert.Spec.layer1 (W1 m ρ c (Proc.devRef .tc main_arg0)) (W1 m ρ c (Proc.devRef .tc main_arg2))
      (fun j : Fin 64 => (W1 m ρ c (Proc.devRef .tc main_v4) : S1x64.Idx → EReal) (ix2 (0 : Fin 1) j)) = _
  rw [W1_arg0, W1_arg2, W1_v4]
  congr 1
  funext j
  exact shapeCast_a_1a_apply _ _ (0 : Fin 1) j

theorem W2_v1 (c : Dev nD) : W2 m ρ c (Proc.devRef .tc main_v1) = srcRaw (m ((c : Thread nD τ).loc main_arg1)) :=
  (W2_of_ne m ρ c main_v1 (by decide)).trans (W1_v1 m ρ c)
theorem W2_v3 (c : Dev nD) : W2 m ρ c (Proc.devRef .tc main_v3) = dstRaw (m ((c : Thread nD τ).loc main_arg1)) :=
  (W2_of_ne m ρ c main_v3 (by decide)).trans (W1_v3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-- After the second stretch: the first layer aggregated along the edges. -/
theorem W3_v15 (c : Dev nD) : W3 m ρ c (Proc.devRef .tc main_v15)
    = agg64 (srcRaw (m ((c : Thread nD τ).loc main_arg1))) (dstRaw (m ((c : Thread nD τ).loc main_arg1)))
        (Cert.Spec.layer1 (m ((c : Thread nD τ).loc main_arg0)) (m ((c : Thread nD τ).loc main_arg2))
          (fun j : Fin 64 => (m ((c : Thread nD τ).loc main_arg3) : S64.Idx → EReal) (ix1 j))) := by
  refine (ops1_v15 (W2 m ρ c)).trans ?_
  rw [W2_v1, W2_v3, W2_v5]
theorem W3_v16 (c : Dev nD) : W3 m ρ c (Proc.devRef .tc main_v16)
    = shapeCast S1x40 (m ((c : Thread nD τ).loc main_arg5)) shapeCasts_S40_S1x40 := by
  refine (ops1_v16 (W2 m ρ c)).trans ?_
  rw [W2_arg5]
theorem W3_v1 (c : Dev nD) : W3 m ρ c (Proc.devRef .tc main_v1) = srcRaw (m ((c : Thread nD τ).loc main_arg1)) :=
  (ops1_v1 (W2 m ρ c)).trans (W2_v1 m ρ c)
theorem W3_v3 (c : Dev nD) : W3 m ρ c (Proc.devRef .tc main_v3) = dstRaw (m ((c : Thread nD τ).loc main_arg1)) :=
  (ops1_v3 (W2 m ρ c)).trans (W2_v3 m ρ c)
theorem W3_arg4 (c : Dev nD) : W3 m ρ c (Proc.devRef .tc main_arg4) = m ((c : Thread nD τ).loc main_arg4) :=
  (ops1_arg4 (W2 m ρ c)).trans (W2_arg4 m ρ c)

/-- After the second launch: the second layer of every node. -/
theorem W4_v17 (c : Dev nD) : W4 m ρ c (Proc.devRef .tc main_v17)
    = Cert.Spec.layer2
        (agg64 (srcRaw (m ((c : Thread nD τ).loc main_arg1))) (dstRaw (m ((c : Thread nD τ).loc main_arg1)))
          (Cert.Spec.layer1 (m ((c : Thread nD τ).loc main_arg0)) (m ((c : Thread nD τ).loc main_arg2))
            (fun j : Fin 64 => (m ((c : Thread nD τ).loc main_arg3) : S64.Idx → EReal) (ix1 j))))
        (m ((c : Thread nD τ).loc main_arg4))
        (fun j : Fin 40 => (m ((c : Thread nD τ).loc main_arg5) : S40.Idx → EReal) (ix1 j)) := by
  refine (W4_arr m ρ c 3).trans ((Cert.KernelIdeal.Region1.final (V3 m ρ) c).trans ?_)
  show Cert.Spec.layer2 (W3 m ρ c (Proc.devRef .tc main_v15)) (W3 m ρ c (Proc.devRef .tc main_arg4))
      (fun j : Fin 40 => (W3 m ρ c (Proc.devRef .tc main_v16) : S1x40.Idx → EReal) (ix2 (0 : Fin 1) j)) = _
  rw [W3_v15, W3_arg4, W3_v16]
  congr 1
  funext j
  exact shapeCast_a_1a_apply _ _ (0 : Fin 1) j

theorem W4_v1 (c : Dev nD) : W4 m ρ c (Proc.devRef .tc main_v1) = srcRaw (m ((c : Thread nD τ).loc main_arg1)) :=
  (W4_of_ne m ρ c main_v1 (by decide)).trans (W3_v1 m ρ c)
theorem W4_v3 (c : Dev nD) : W4 m ρ c (Proc.devRef .tc main_v3) = dstRaw (m ((c : Thread nD τ).loc main_arg1)) :=
  (W4_of_ne m ρ c main_v3 (by decide)).trans (W3_v3 m ρ c)

/-- After the third launch: the result. -/
theorem value (c : Dev nD) : W6 m ρ c (Proc.devRef .tc main_v28)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W6_arr m ρ c 1).trans ((Cert.KernelIdeal.Region2.final (V5 m ρ) c).trans ?_)
  show Cert.Spec.logSoftmax (W5 m ρ c (Proc.devRef .tc main_v27)) = _
  rw [show W5 m ρ c (Proc.devRef .tc main_v27) = _ from ops2_v27 (W4 m ρ c), W4_v1, W4_v3, W4_v17]
  rfl

end Cert.KernelIdeal.KValue

end
-- ==== Proof.RefStages.lean ====
/-
  The reference program's stages, each the literal composition of its host operations.

  An affine layer (the product with the weights plus the bias laid along every row); the aggregation along the edges
  (the edge table's two rows made index columns, a source below zero counted from the end, a gather of the source rows,
  their sum scattered onto the target rows of a zero array); the exponential linear unit in its guarded spelling; the
  second affine layer; the same aggregation at width 40; the row-by-row logarithm of the softmax (the row's maximum from
  −∞ and once more against −∞, the shifted entries, the logarithm of the sum of their exponentials).
-/
import proofs.«127312_j40063454937539_1_alg».proof.Proof.Gen.ReferenceIdeal
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-! ## The stages -/

/-- Row `k` of the edge table as a vector of 3200000 node numbers. -/
def edgeRow0 (e : IVec S2x3200000 32) : IVec S3200000 32 :=
  shapeCast S3200000 (extractStridedSlice S1x3200000 ![0, 0] e slices_S2x3200000_S1x3200000_0_0) shapeCasts_S1x3200000_S3200000

@[inherit_doc edgeRow0]
def edgeRow1 (e : IVec S2x3200000 32) : IVec S3200000 32 :=
  shapeCast S3200000 (extractStridedSlice S1x3200000 ![1, 0] e slices_S2x3200000_S1x3200000_1_0) shapeCasts_S1x3200000_S3200000

/-- The edges' source nodes as an index column: row 0 of the edge table, a negative number counted from the end
    (100000 added to it). -/
def srcIdx (e : IVec S2x3200000 32) : IVec S3200000x1 32 :=
  broadcastInDim S3200000x1 ![0] bcast_S3200000_S3200000x1_0
    (select (cmpi .slt (edgeRow0 e) (broadcastInDim S3200000 ![] bcast_S_S3200000 (constantI S_ 32 0#32)))
      (addi (edgeRow0 e) (broadcastInDim S3200000 ![] bcast_S_S3200000 (constantI S_ 32 100000#32)))
      (edgeRow0 e))

/-- The edges' target nodes as an index column: row 1 of the edge table. -/
def dstIdx (e : IVec S2x3200000 32) : IVec S3200000x1 32 :=
  broadcastInDim S3200000x1 ![0] bcast_S3200000_S3200000x1_0 (edgeRow1 e)

/-- The aggregation along the edges at width 64: every edge adds its source node's row to its target node's row of
    a zero array. -/
def agg64 (e : IVec S2x3200000 32) (h : FVec F S100000x64 .f32) : FVec F S100000x64 .f32 :=
  Host.scatterAdd scatter_S100000x64_S3200000x1_S3200000x64_1_0_0_1
    (broadcastInDim S100000x64 ![] bcast_S_S100000x64 (constant S_ .f32 0x00000000#32))
    (dstIdx e)
    (Host.gather gather_S100000x64_S3200000x1_S3200000x64_1_0_n_n_0_1_164 h (srcIdx e))

/-- The same aggregation at width 40. -/
def agg40 (e : IVec S2x3200000 32) (h : FVec F S100000x40 .f32) : FVec F S100000x40 .f32 :=
  Host.scatterAdd scatter_S100000x40_S3200000x1_S3200000x40_1_0_0_1
    (broadcastInDim S100000x40 ![] bcast_S_S100000x40 (constant S_ .f32 0x00000000#32))
    (dstIdx e)
    (Host.gather gather_S100000x40_S3200000x1_S3200000x40_1_0_n_n_0_1_140 h (srcIdx e))

/-- The first affine layer: the product with the weights plus the bias laid along every row. -/
def lin1 (x : FVec F S100000x512 .f32) (W1 : FVec F S512x64 .f32) (b1 : FVec F S64 .f32) : FVec F S100000x64 .f32 :=
  addf (Host.dotGeneral dot_S100000x512_S512x64_S100000x64_1_0_0_1_n_n none x W1)
    (broadcastInDim S100000x64 ![0, 1] bcast_S1x64_S100000x64_0_1 (broadcastInDim S1x64 ![1] bcast_S64_S1x64_1 b1))

/-- The exponential linear unit as the program spells it: where the entry is positive the entry, elsewhere
    `1 · expm1` of the entry (the inner selection feeds `expm1` a zero at the positive entries). -/
def eluH (h : FVec F S100000x64 .f32) : FVec F S100000x64 .f32 :=
  select (cmpf .ogt h (broadcastInDim S100000x64 ![] bcast_S_S100000x64 (constant S_ .f32 0x00000000#32))) h
    (mulf (broadcastInDim S100000x64 ![] bcast_S_S100000x64 (constant S_ .f32 0x3F800000#32))
      (Host.expm1
        (select (cmpf .ogt h (broadcastInDim S100000x64 ![] bcast_S_S100000x64 (constant S_ .f32 0x00000000#32)))
          (broadcastInDim S100000x64 ![] bcast_S_S100000x64 (constant S_ .f32 0x00000000#32)) h)))

/-- The second affine layer. -/
def lin2 (h : FVec F S100000x64 .f32) (W2 : FVec F S64x40 .f32) (b2 : FVec F S40 .f32) : FVec F S100000x40 .f32 :=
  addf (Host.dotGeneral dot_S100000x64_S64x40_S100000x40_1_0_0_1_n_n none h W2)
    (broadcastInDim S100000x40 ![0, 1] bcast_S1x40_S100000x40_0_1 (broadcastInDim S1x40 ![1] bcast_S40_S1x40_1 b2))

/-- A row's maximum as the program computes it: the reduction from −∞ along the columns, then the maximum with −∞
    once more. -/
def rowMaxH (h : FVec F S100000x40 .f32) : FVec F S100000 .f32 :=
  maximumf (broadcastInDim S100000 ![] bcast_S_S100000 (constant S_ .f32 0xFF800000#32))
    (Host.reduce FloatOps.maximumf h (constant S_ .f32 0xFF800000#32) reducesTo_S100000x40_S100000_d1 h_S_)

/-- The entries less their row's maximum. -/
def shiftH (h : FVec F S100000x40 .f32) : FVec F S100000x40 .f32 :=
  subf h (broadcastInDim S100000x40 ![0, 1] bcast_S100000x1_S100000x40_0_1
    (broadcastInDim S100000x1 ![0] bcast_S100000_S100000x1_0 (rowMaxH h)))

/-- The logarithm of the softmax, row by row, as the program spells it: the shifted entries less the logarithm of
    the row's sum of their exponentials. -/
def lsmH (h : FVec F S100000x40 .f32) : FVec F S100000x40 .f32 :=
  subf (shiftH h) (broadcastInDim S100000x40 ![0, 1] bcast_S100000x1_S100000x40_0_1
    (Host.log (broadcastInDim S100000x1 ![0] bcast_S100000_S100000x1_0
      (Host.reduceAdd (Host.exp (shiftH h)) (constant S_ .f32 0x00000000#32) reducesTo_S100000x40_S100000_d1 h_S_))))

/-- What @main computes of its six arguments. -/
def result (x : FVec F S100000x512 .f32) (e : IVec S2x3200000 32) (W1 : FVec F S512x64 .f32) (b1 : FVec F S64 .f32)
    (W2 : FVec F S64x40 .f32) (b2 : FVec F S40 .f32) : FVec F S100000x40 .f32 :=
  lsmH (agg40 e (lin2 (eluH (agg64 e (lin1 x W1 b1))) W2 b2))

end Cert.ReferenceIdeal.RefRun

end
-- ==== Proof.RefRun.lean ====
/-
  The reference program's run, read back as one term.

  @main is a straight line of host operations once its three outlined functions (the exponential linear unit,
  its two selections, the logarithm of the softmax) are unfolded at their calls. The line is listed below in six
  stretches, one per stage: an affine layer, the aggregation along the edges, the exponential linear unit, the
  second affine layer, the same aggregation at width 40, and the row-by-row logarithm of the softmax. Each stretch
  leaves its stage's value of what it read in its last buffer and writes no buffer a later stretch reads from
  before it; so every weakly fair execution terminates with the result buffer at the composition of the stages
  applied to the arguments' launch contents, and the arguments unchanged.
-/
import proofs.«127312_j40063454937539_1_alg».proof.Proof.RefStages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-! ## The line of operations, stage by stage -/

/-- The first layer: the product, the bias laid along axis 1 of a one-row matrix and that row down the rows, the sum. -/
abbrev opsLin1 : List (HloOp τ sig (Elt F)) :=
  [ binary main_arg0 main_arg2 main_v0 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)) ]

/-- The aggregation at width 64: the edge table's two rows as vectors, the source row's negative entries counted from
    the end, both made index columns; the gather of the source rows; the zero array; the scatter that adds. -/
abbrev opsAgg64 : List (HloOp τ sig (Elt F)) :=
  [ unary main_arg1 main_v4 ((extractStridedSlice S1x3200000 ![0, 0] · slices_S2x3200000_S1x3200000_0_0) : (⟨S2x3200000, .i32⟩ : BufTy).Contents (Elt F) → (⟨S1x3200000, .i32⟩ : BufTy).Contents (Elt F)),
    reshape main_v4 main_v5 rfl shapeCasts_S1x3200000_S3200000,
    unary main_arg1 main_v6 ((extractStridedSlice S1x3200000 ![1, 0] · slices_S2x3200000_S1x3200000_1_0) : (⟨S2x3200000, .i32⟩ : BufTy).Contents (Elt F) → (⟨S1x3200000, .i32⟩ : BufTy).Contents (Elt F)),
    reshape main_v6 main_v7 rfl shapeCasts_S1x3200000_S3200000,
    nullary main_c (constantI S_ 32 0#32),
    unary main_c main_v8 (broadcastInDim S3200000 ![] bcast_S_S3200000 : (⟨S_, .i32⟩ : BufTy).Contents (Elt F) → (⟨S3200000, .i32⟩ : BufTy).Contents (Elt F)),
    binary main_v5 main_v8 main_v9 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v10 (broadcastInDim S3200000 ![] bcast_S_S3200000 : (⟨S_, .i32⟩ : BufTy).Contents (Elt F) → (⟨S3200000, .i32⟩ : BufTy).Contents (Elt F)),
    binary main_v5 main_v10 main_v11 (addi : (⟨S3200000, .i32⟩ : BufTy).Contents (Elt F) → (⟨S3200000, .i32⟩ : BufTy).Contents (Elt F) → (⟨S3200000, .i32⟩ : BufTy).Contents (Elt F)),
    ternary main_v9 main_v11 main_v5 main_v12 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v12 main_v13 (broadcastInDim S3200000x1 ![0] bcast_S3200000_S3200000x1_0 : (⟨S3200000, .i32⟩ : BufTy).Contents (Elt F) → (⟨S3200000x1, .i32⟩ : BufTy).Contents (Elt F)),
    binary main_v3 main_v13 main_v14 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst (constant S_ .f32 0x00000000#32),
    unary main_cst main_v15 (broadcastInDim S100000x64 ![] bcast_S_S100000x64 : (⟨S_, .f32⟩ : BufTy).Contents (Elt F) → (⟨S100000x64, .f32⟩ : BufTy).Contents (Elt F)),
    unary main_v7 main_v16 (broadcastInDim S3200000x1 ![0] bcast_S3200000_S3200000x1_0 : (⟨S3200000, .i32⟩ : BufTy).Contents (Elt F) → (⟨S3200000x1, .i32⟩ : BufTy).Contents (Elt F)),
    ternary main_v15 main_v16 main_v14 main_v17 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)) ]

/-- The exponential linear unit's fifteen operations into `main_call0`'s buffers: its first selection's three into
    `main_call0_call0`'s, its second's one into `main_call0_call1`'s. -/
abbrev opsElu : List (HloOp τ sig (Elt F)) :=
  [ TRef.nullary main_call0.cst (constant S_ .f32 0x00000000#32),
    TRef.unary main_call0.cst main_call0.v0 (broadcastInDim S100000x64 ![] bcast_S_S100000x64),
    TRef.binary (.of main_v17 : TRef sig ⟨S100000x64, .f32⟩) main_call0.v0 main_call0.v1 (cmpf .ogt),
    TRef.nullary main_call0.cst_0 (constant S_ .f32 0x00000000#32),
    TRef.unary main_call0.cst_0 main_call0.v2 (broadcastInDim S100000x64 ![] bcast_S_S100000x64),
    TRef.binary (.of main_v17 : TRef sig ⟨S100000x64, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x64 ![] bcast_S_S100000x64),
    TRef.ternary main_call0.v3 main_call0.call0.v1 (.of main_v17 : TRef sig ⟨S100000x64, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x64 ![] bcast_S_S100000x64),
    TRef.binary main_call0.v6 main_call0.v5 main_call0.v7 mulf,
    TRef.ternary main_call0.v1 (.of main_v17 : TRef sig ⟨S100000x64, .f32⟩) main_call0.v7 main_call0.call1.v0 select ]

/-- The second layer. -/
abbrev opsLin2 : List (HloOp τ sig (Elt F)) :=
  [ binary main_v18 main_arg4 main_v19 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg5 main_v20 (broadcastInDim S1x40 ![1] bcast_S40_S1x40_1 : (⟨S40, .f32⟩ : BufTy).Contents (Elt F) → (⟨S1x40, .f32⟩ : BufTy).Contents (Elt F)),
    unary main_v20 main_v21 (broadcastInDim S100000x40 ![0, 1] bcast_S1x40_S100000x40_0_1 : (⟨S1x40, .f32⟩ : BufTy).Contents (Elt F) → (⟨S100000x40, .f32⟩ : BufTy).Contents (Elt F)),
    binary main_v19 main_v21 main_v22 (addf : (⟨S100000x40, .f32⟩ : BufTy).Contents (Elt F) → (⟨S100000x40, .f32⟩ : BufTy).Contents (Elt F) → (⟨S100000x40, .f32⟩ : BufTy).Contents (Elt F)) ]

/-- The aggregation at width 40, the index columns made again from the same edge table. -/
abbrev opsAgg40 : List (HloOp τ sig (Elt F)) :=
  [ unary main_arg1 main_v23 ((extractStridedSlice S1x3200000 ![0, 0] · slices_S2x3200000_S1x3200000_0_0) : (⟨S2x3200000, .i32⟩ : BufTy).Contents (Elt F) → (⟨S1x3200000, .i32⟩ : BufTy).Contents (Elt F)),
    reshape main_v23 main_v24 rfl shapeCasts_S1x3200000_S3200000,
    unary main_arg1 main_v25 ((extractStridedSlice S1x3200000 ![1, 0] · slices_S2x3200000_S1x3200000_1_0) : (⟨S2x3200000, .i32⟩ : BufTy).Contents (Elt F) → (⟨S1x3200000, .i32⟩ : BufTy).Contents (Elt F)),
    reshape main_v25 main_v26 rfl shapeCasts_S1x3200000_S3200000,
    nullary main_c_1 (constantI S_ 32 0#32),
    unary main_c_1 main_v27 (broadcastInDim S3200000 ![] bcast_S_S3200000 : (⟨S_, .i32⟩ : BufTy).Contents (Elt F) → (⟨S3200000, .i32⟩ : BufTy).Contents (Elt F)),
    binary main_v24 main_v27 main_v28 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v29 (broadcastInDim S3200000 ![] bcast_S_S3200000 : (⟨S_, .i32⟩ : BufTy).Contents (Elt F) → (⟨S3200000, .i32⟩ : BufTy).Contents (Elt F)),
    binary main_v24 main_v29 main_v30 (addi : (⟨S3200000, .i32⟩ : BufTy).Contents (Elt F) → (⟨S3200000, .i32⟩ : BufTy).Contents (Elt F) → (⟨S3200000, .i32⟩ : BufTy).Contents (Elt F)),
    ternary main_v28 main_v30 main_v24 main_v31 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v31 main_v32 (broadcastInDim S3200000x1 ![0] bcast_S3200000_S3200000x1_0 : (⟨S3200000, .i32⟩ : BufTy).Contents (Elt F) → (⟨S3200000x1, .i32⟩ : BufTy).Contents (Elt F)),
    binary main_v22 main_v32 main_v33 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    nullary main_cst_3 (constant S_ .f32 0x00000000#32),
    unary main_cst_3 main_v34 (broadcastInDim S100000x40 ![] bcast_S_S100000x40 : (⟨S_, .f32⟩ : BufTy).Contents (Elt F) → (⟨S100000x40, .f32⟩ : BufTy).Contents (Elt F)),
    unary main_v26 main_v35 (broadcastInDim S3200000x1 ![0] bcast_S3200000_S3200000x1_0 : (⟨S3200000, .i32⟩ : BufTy).Contents (Elt F) → (⟨S3200000x1, .i32⟩ : BufTy).Contents (Elt F)),
    ternary main_v34 main_v35 main_v33 main_v36 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)) ]

/-- The fifteen operations of the logarithm of the softmax into `main_call1`'s buffers. -/
abbrev opsLsm : List (HloOp τ sig (Elt F)) :=
  [ TRef.nullary main_call1.cst (constant S_ .f32 0xFF800000#32),
    TRef.binary (.of main_v36 : TRef sig ⟨S100000x40, .f32⟩) main_call1.cst main_call1.v0 (fun x v => Host.reduce FloatOps.maximumf x v reducesTo_S100000x40_S100000_d1 h_S_),
    TRef.nullary main_call1.cst_0 (constant S_ .f32 0xFF800000#32),
    TRef.unary main_call1.cst_0 main_call1.v1 (broadcastInDim S100000 ![] bcast_S_S100000),
    TRef.binary main_call1.v1 main_call1.v0 main_call1.v2 maximumf,
    TRef.unary main_call1.v2 main_call1.v3 (broadcastInDim S100000x1 ![0] bcast_S100000_S100000x1_0),
    TRef.unary main_call1.v3 main_call1.v4 (broadcastInDim S100000x40 ![0, 1] bcast_S100000x1_S100000x40_0_1),
    TRef.binary (.of main_v36 : TRef sig ⟨S100000x40, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S100000x40_S100000_d1 h_S_),
    TRef.unary main_call1.v7 main_call1.v8 (broadcastInDim S100000x1 ![0] bcast_S100000_S100000x1_0),
    TRef.unary main_call1.v8 main_call1.v9 Host.log,
    TRef.unary main_call1.v9 main_call1.v10 (broadcastInDim S100000x40 ![0, 1] bcast_S100000x1_S100000x40_0_1),
    TRef.binary main_call1.v5 main_call1.v10 main_call1.v11 subf ]

/-- @main's 72 operations in order, the calls unfolded. -/
abbrev ops : List (HloOp τ sig (Elt F)) := opsLin1 ++ opsAgg64 ++ opsElu ++ opsLin2 ++ opsAgg40 ++ opsLsm

-- seventy-two binds re-associated: the rewrite under the chain recurses once per statement
set_option maxRecDepth 2048 in
set_option maxHeartbeats 4000000 in
/-- @main is that straight line: the functions' definitions unfolded at their calls, both sides are one chain of
    steps once sequencing is re-associated. -/
theorem main_eq (c : Dev nD) : main (F := F) c = seq ops := by
  simp only [main, fn_elu.body, fn_where.body, fn_where_0.body, fn_log_softmax.body, ops, opsLin1, opsAgg64, opsElu, opsLin2,
    opsAgg40, opsLsm, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨binary_bufs_sub .., unary_bufs_sub .., unary_bufs_sub .., binary_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., unary_bufs_sub .., unary_bufs_sub .., binary_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..⟩

/-! ## What each stretch leaves

Each at an arbitrary valuation: a stretch's last buffer holds its stage's value of the buffers it read, and the
arguments a later stretch still reads are as they were. -/

/-- The buffers after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ### The typed references' transports

A function's operation reads and writes its buffers through transports along the buffers' types; at a literal
reference they are the identity. -/

/-- Contents carried to a typed reference's buffer and back are the contents. -/
theorem ofBuf_toBuf {T : BufTy} (x : TRef sig T) (v : T.Contents (Elt F)) : x.ofBuf (x.toBuf v) = v := by
  obtain ⟨ref, ty_eq, _, _⟩ := x
  subst ty_eq
  rfl

theorem ofBuf_v17 (h1 h2 h3) (v : (main_v17 : Ref sig .tc).ty.Contents (Elt F)) :
    (TRef.of main_v17 h1 h2 h3 : TRef sig ⟨S100000x64, .f32⟩).ofBuf v = v := rfl
theorem toBuf_v18 (h1 h2 h3) (v : FVec F S100000x64 .f32) :
    TRef.toBuf (Val := Elt F) (TRef.of main_v18 h1 h2 h3 : TRef sig ⟨S100000x64, .f32⟩) v = v := rfl
theorem ofBuf_v36 (h1 h2 h3) (v : (main_v36 : Ref sig .tc).ty.Contents (Elt F)) :
    (TRef.of main_v36 h1 h2 h3 : TRef sig ⟨S100000x40, .f32⟩).ofBuf v = v := rfl
theorem toBuf_v37 (h1 h2 h3) (v : FVec F S100000x40 .f32) :
    TRef.toBuf (Val := Elt F) (TRef.of main_v37 h1 h2 h3 : TRef sig ⟨S100000x40, .f32⟩) v = v := rfl

section Stretches

variable (Vv : Valuation τ sig (Elt F))

theorem lin1_out : after opsLin1 Vv (main_v3 : DevRef τ sig) = lin1 (Vv (main_arg0 : DevRef τ sig)) (Vv (main_arg2 : DevRef τ sig)) (Vv (main_arg3 : DevRef τ sig)) := by
  after_results_simp
  rfl

theorem lin1_keep : after opsLin1 Vv (main_arg1 : DevRef τ sig) = Vv (main_arg1 : DevRef τ sig)
    ∧ after opsLin1 Vv (main_arg4 : DevRef τ sig) = Vv (main_arg4 : DevRef τ sig)
    ∧ after opsLin1 Vv (main_arg5 : DevRef τ sig) = Vv (main_arg5 : DevRef τ sig) := by
  refine ⟨?_, ?_, ?_⟩ <;> after_results_simp

theorem agg64_out : after opsAgg64 Vv (main_v17 : DevRef τ sig) = agg64 (Vv (main_arg1 : DevRef τ sig)) (Vv (main_v3 : DevRef τ sig)) := by
  after_results_simp
  rfl

theorem agg64_keep : after opsAgg64 Vv (main_arg1 : DevRef τ sig) = Vv (main_arg1 : DevRef τ sig)
    ∧ after opsAgg64 Vv (main_arg4 : DevRef τ sig) = Vv (main_arg4 : DevRef τ sig)
    ∧ after opsAgg64 Vv (main_arg5 : DevRef τ sig) = Vv (main_arg5 : DevRef τ sig) := by
  refine ⟨?_, ?_, ?_⟩ <;> after_results_simp

theorem elu_out : after opsElu Vv (main_v18 : DevRef τ sig) = eluH (Vv (main_v17 : DevRef τ sig)) := by
  after_results_simp
  simp only [ofBuf_toBuf, ofBuf_v17, toBuf_v18, id_eq]
  unfold eluH
  rfl

theorem elu_keep : after opsElu Vv (main_arg1 : DevRef τ sig) = Vv (main_arg1 : DevRef τ sig)
    ∧ after opsElu Vv (main_arg4 : DevRef τ sig) = Vv (main_arg4 : DevRef τ sig)
    ∧ after opsElu Vv (main_arg5 : DevRef τ sig) = Vv (main_arg5 : DevRef τ sig) := by
  refine ⟨?_, ?_, ?_⟩ <;> after_results_simp

theorem lin2_out : after opsLin2 Vv (main_v22 : DevRef τ sig) = lin2 (Vv (main_v18 : DevRef τ sig)) (Vv (main_arg4 : DevRef τ sig)) (Vv (main_arg5 : DevRef τ sig)) := by
  after_results_simp
  rfl

theorem lin2_keep : after opsLin2 Vv (main_arg1 : DevRef τ sig) = Vv (main_arg1 : DevRef τ sig) := by
  after_results_simp

theorem agg40_out : after opsAgg40 Vv (main_v36 : DevRef τ sig) = agg40 (Vv (main_arg1 : DevRef τ sig)) (Vv (main_v22 : DevRef τ sig)) := by
  after_results_simp
  rfl

theorem lsm_out : after opsLsm Vv (main_v37 : DevRef τ sig) = lsmH (Vv (main_v36 : DevRef τ sig)) := by
  after_results_simp
  simp only [ofBuf_toBuf, ofBuf_v36, toBuf_v37]
  unfold lsmH shiftH rowMaxH
  rfl

end Stretches

/-! ## What the line leaves in the result buffer and in the arguments -/

/-- The result buffer after the line holds the stages' composition at the arguments: the stretches' values chained,
    each read at what the stretches before it left. -/
theorem out_eq (V : Valuation τ sig (Elt F)) :
    after ops V (main_v37 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  unfold result
  simp only [ops, after_append]
  rw [lsm_out, agg40_out, lin2_out, lin2_keep, elu_out, (elu_keep _).1, (elu_keep _).2.1, (elu_keep _).2.2, agg64_out,
    (agg64_keep _).1, (agg64_keep _).2.1, (agg64_keep _).2.2, lin1_out, (lin1_keep _).1, (lin1_keep _).2.1, (lin1_keep _).2.2]

set_option maxRecDepth 8192 in
set_option maxHeartbeats 1600000 in
/-- No operation writes an argument. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig) := by
  simp only [ops, after_append]
  refine ⟨?_, ?_, ?_, ?_, ?_, ?_⟩ <;> after_results_simp

/-! ## The run -/

/-- On every device, for any float values, from any memory with zero counters: every weakly fair execution of @main
    terminates with the result buffer at the stages' composition of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v37).trans (out_eq _),
        (h c main_arg0).trans (args_eq _).1,
        (h c main_arg1).trans (args_eq _).2.1,
        (h c main_arg2).trans (args_eq _).2.2.1,
        (h c main_arg3).trans (args_eq _).2.2.2.1,
        (h c main_arg4).trans (args_eq _).2.2.2.2.1,
        (h c main_arg5).trans (args_eq _).2.2.2.2.2⟩)
    (run_seq scopedRefs_eq scopedSems_eq defs main (fun _ => ops) main_eq (fun _ => ops_sub) m ρ)

end Cert.ReferenceIdeal.RefRun

end
-- ==== Proof.RefValue.lean ====
/-
  The reference program's stages, read at an index.

  An affine layer as the host spells it — the rows-by-columns product, a bias vector laid along axis 1 of a one-row matrix and
  that row down the rows — has at `(r, j)` the value `∑ k, h (r, k) · W (k, j) + b j`. The guarded exponential linear unit is
  the plain one at every entry. A row's maximum taken from −∞ along the columns, and once more against −∞, is the row's
  maximum; laid back along the row and subtracted, exponentiated and summed along the columns from zero, it gives the
  logarithm of the row's softmax. The aggregation between the layers is not read: it is the same function on both sides.
-/
import proofs.«127312_j40063454937539_1_alg».proof.Proof.RefStages
import proofs.«127312_j40063454937539_1_alg».proof.Proof.Spec
import proofs.«127312_j40063454937539_1_alg».proof.Proof.LibDense
import proofs.«127312_j40063454937539_1_alg».proof.Proof.LibRows
import proofs.«127312_j40063454937539_1_alg».proof.Proof.EluForms
import Idealize.ShloMosaic.Lib.ValueIdx
import Idealize.ShloMosaic.Lib.KernelVsHost
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Facts₀ Cert.ReferenceIdeal.RefRun Idealize.ShloMosaic Idealize.ShloMosaic.ValueIdx

/-! ## The affine layers -/

/-- A host program's affine layer read at `(e, j)`, given the input's row `e`. The product's dimension numbers may be any
    record that IS the rows-by-columns one. -/
theorem host_affine_apply {M K N : ℕ} {φ₁ φ₂ : FTy} (d : DotDims ⟨2, ![M, K]⟩ ⟨2, ![K, N]⟩ ⟨2, ![M, N]⟩)
    (hd : d = DotDims.plain M K N) (prec : Option ContractPrecision) (h : FVec Ideal ⟨2, ![M, K]⟩ φ₁)
    (W : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (e : Fin M) (j : Fin N)
    (row : Fin K → EReal) (hrow : ∀ k, h (ix2 e k) = row k) :
    addf (Host.dotGeneral d prec h W)
        (broadcastInDim ⟨2, ![M, N]⟩ ![0, 1] h2 (broadcastInDim ⟨2, ![1, N]⟩ ![1] h1 b)) (ix2 e j)
      = Cert.Spec.lin row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  show (FloatOps.dotGeneral (F := Ideal) (DotDims.plain M K N) prec .single h W (ix2 e j) : EReal)
      + (broadcastInDim ⟨2, ![M, N]⟩ ![0, 1] h2 (broadcastInDim ⟨2, ![1, N]⟩ ![1] h1 b) (ix2 e j) : EReal) = _
  rw [Cert.LibDense.dotGeneral_plain_apply, e2, e1]
  unfold Cert.Spec.lin
  simp only [hrow]

theorem dot1_plain : dot_S100000x512_S512x64_S100000x64_1_0_0_1_n_n = DotDims.plain 100000 512 64 := rfl
theorem dot2_plain : dot_S100000x64_S64x40_S100000x40_1_0_0_1_n_n = DotDims.plain 100000 64 40 := rfl

/-- The first layer is the affine layer of every row. -/
theorem lin1_eq (x : FVec Ideal S100000x512 .f32) (W1 : FVec Ideal S512x64 .f32) (b1 : FVec Ideal S64 .f32) :
    lin1 (F := Ideal) x W1 b1 = Cert.Spec.layer1 x W1 (fun j : Fin 64 => b1 (ix1 j)) := by
  funext i
  obtain ⟨r, j, rfl⟩ : ∃ (r : Fin 100000) (j : Fin 64), i = ix2 r j := ⟨i 0, i 1, eq_ix2 i⟩
  rw [Cert.Spec.layer1_apply]
  unfold lin1
  exact host_affine_apply _ dot1_plain none x W1 b1 _ _ r j _ (fun k => rfl)

/-! ## The exponential linear unit -/

/-- A broadcast constant reads its word's value at every index. -/
theorem splat_apply {s : Shape} (h0 : S_.BroadcastsInDim s ![]) (w : BitVec 32) (i : s.Idx) :
    broadcastInDim s ![] h0 (constant (F := Ideal) S_ .f32 w) i = Ideal.ofBits .f32 w :=
  broadcastInDim_apply ![] h0 (constant (F := Ideal) S_ .f32 w) i (fun a => a.elim0) (fun a => a.elim0)

/-- The guarded spelling at an entry is the exponential linear unit of the entry. -/
theorem eluH_apply (h : FVec Ideal S100000x64 .f32) (i : S100000x64.Idx) : eluH (F := Ideal) h i = Cert.Spec.elu (h i) := by
  unfold eluH
  show Scalar.select (FloatOps.cmpf (F := Ideal) (φ := .f32) .ogt (h i)
        (broadcastInDim S100000x64 ![] bcast_S_S100000x64 (constant (F := Ideal) S_ .f32 0x00000000#32) i)) (h i)
      (broadcastInDim S100000x64 ![] bcast_S_S100000x64 (constant (F := Ideal) S_ .f32 0x3F800000#32) i
        * (Ideal.exp (Scalar.select (FloatOps.cmpf (F := Ideal) (φ := .f32) .ogt (h i)
            (broadcastInDim S100000x64 ![] bcast_S_S100000x64 (constant (F := Ideal) S_ .f32 0x00000000#32) i))
            (broadcastInDim S100000x64 ![] bcast_S_S100000x64 (constant (F := Ideal) S_ .f32 0x00000000#32) i) (h i)) - 1)) = _
  rw [splat_apply, splat_apply]
  exact Cert.Spec.elu_guarded (h i)

/-- The second layer after the guarded unit is the second layer of every row. -/
theorem lin2_elu_eq (h : FVec Ideal S100000x64 .f32) (W2 : FVec Ideal S64x40 .f32) (b2 : FVec Ideal S40 .f32) :
    lin2 (F := Ideal) (eluH (F := Ideal) h) W2 b2 = Cert.Spec.layer2 h W2 (fun j : Fin 40 => b2 (ix1 j)) := by
  funext i
  obtain ⟨r, j, rfl⟩ : ∃ (r : Fin 100000) (j : Fin 40), i = ix2 r j := ⟨i 0, i 1, eq_ix2 i⟩
  rw [Cert.Spec.layer2_apply]
  unfold lin2
  exact host_affine_apply _ dot2_plain none (eluH (F := Ideal) h) W2 b2 _ _ r j _ (fun k => eluH_apply h (ix2 r k))

/-! ## The logarithm of the softmax -/

theorem red : (⟨2, ![100000, 40]⟩ : Shape).Reduces [1] ⟨1, ![100000]⟩ := by decide

/-- A host logarithm, exponential and sum read at an index, whatever the operand. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl
theorem hostReduceAdd_apply {s t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl
theorem splat0_first (hu : 0 < S_.numel) (w : BitVec 32) :
    constant (F := Ideal) S_ .f32 w (Shape.Idx.first hu) = Ideal.ofBits .f32 w := rfl

/-- A vector of row statistics made a column and laid along the columns reads, at `(r, j)`, its entry `r`. -/
theorem col_apply {α : Type} (v : S100000.Idx → α) (r : Fin 100000) (j : Fin 40) :
    broadcastInDim S100000x40 ![0, 1] bcast_S100000x1_S100000x40_0_1
        (broadcastInDim S100000x1 ![0] bcast_S100000_S100000x1_0 v) (ix2 r j) = v (ix1 r) := by
  rw [broadcastInDim_apply ![0, 1] bcast_S100000x1_S100000x40_0_1 _ (ix2 r j) (ix2 r (0 : Fin 1)) (fun a => by
    match a with
    | ⟨0, _⟩ => rfl
    | ⟨1, _⟩ => rfl)]
  exact broadcastInDim_apply ![0] bcast_S100000_S100000x1_0 v (ix2 r (0 : Fin 1)) (ix1 r) (fun a => by
    match a with
    | ⟨0, _⟩ => rfl)

/-- A column of row statistics laid along the columns reads, at `(r, j)`, the column's entry `(r, 0)`. -/
theorem col1_apply {α : Type} (v : S100000x1.Idx → α) (r : Fin 100000) (j : Fin 40) :
    broadcastInDim S100000x40 ![0, 1] bcast_S100000x1_S100000x40_0_1 v (ix2 r j) = v (ix2 r (0 : Fin 1)) :=
  broadcastInDim_apply ![0, 1] bcast_S100000x1_S100000x40_0_1 v (ix2 r j) (ix2 r (0 : Fin 1)) (fun a => by
    match a with
    | ⟨0, _⟩ => rfl
    | ⟨1, _⟩ => rfl)

/-- A vector made a column reads, at `(r, 0)`, its entry `r`. -/
theorem col0_apply {α : Type} (v : S100000.Idx → α) (r : Fin 100000) :
    broadcastInDim S100000x1 ![0] bcast_S100000_S100000x1_0 v (ix2 r (0 : Fin 1)) = v (ix1 r) :=
  broadcastInDim_apply ![0] bcast_S100000_S100000x1_0 v (ix2 r (0 : Fin 1)) (ix1 r) (fun a => by
    match a with
    | ⟨0, _⟩ => rfl)

/-- The fold of the maximum over a row's 40 entries, from −∞ and once more against −∞, is the row's maximum. -/
theorem fold_max_row (f : Fin 40 → EReal) :
    max (Ideal.ofBits .f32 0xFF800000#32) ((Finset.univ : Finset (Fin 40)).fold max (Ideal.ofBits .f32 0xFF800000#32) f)
      = Cert.Spec.rowMax f := by
  rw [Cert.Spec.ofBits_neg_inf]
  exact Cert.Spec.max_bot_rowMax f

/-- The row's maximum as the program computes it is the row's maximum. -/
theorem rowMaxH_apply (h : FVec Ideal S100000x40 .f32) (r : Fin 100000) :
    rowMaxH (F := Ideal) h (ix1 r) = Cert.Spec.rowMax (fun k : Fin 40 => h (ix2 r k)) := by
  unfold rowMaxH
  rw [maximumf_apply, splat_apply, Host.reduce_eq_fold_single FloatOps.maximumf h _ reducesTo_S100000x40_S100000_d1 red h_S_,
    splat0_first]
  have e : (h ∘ red.lift (ix1 r)) = fun k : Fin 40 => h (ix2 r k) :=
    funext fun k => congrArg h (Cert.LibRows.lift_row red r k)
  rw [e]
  exact fold_max_row _

theorem shiftH_apply (h : FVec Ideal S100000x40 .f32) (r : Fin 100000) (j : Fin 40) :
    shiftH (F := Ideal) h (ix2 r j) = h (ix2 r j) - Cert.Spec.rowMax (fun k : Fin 40 => h (ix2 r k)) := by
  unfold shiftH
  rw [subf_apply, col_apply, rowMaxH_apply]

/-- The sum of the exponentials along a row, as the program computes it. -/
theorem rowSumH_apply (h : FVec Ideal S100000x40 .f32) (r : Fin 100000) :
    Host.reduceAdd (Host.exp (shiftH (F := Ideal) h)) (constant (F := Ideal) S_ .f32 0x00000000#32) reducesTo_S100000x40_S100000_d1 h_S_ (ix1 r)
      = ∑ k : Fin 40, Ideal.exp (h (ix2 r k) - Cert.Spec.rowMax (fun k : Fin 40 => h (ix2 r k))) := by
  rw [hostReduceAdd_apply, Ideal.hostReduceAdd_single reducesTo_S100000x40_S100000_d1 red, splat0_first, Ideal.ofBits_zero_f32, zero_add]
  refine Finset.sum_congr rfl fun k _ => ?_
  rw [hostExp_apply, Cert.LibRows.lift_row red r k]
  exact congrArg Ideal.exp (shiftH_apply h r k)

/-- The program's logarithm of the softmax is the row-by-row normalisation. -/
theorem lsm_eq (h : FVec Ideal S100000x40 .f32) : lsmH (F := Ideal) h = Cert.Spec.logSoftmax h := by
  funext i
  obtain ⟨r, j, rfl⟩ : ∃ (r : Fin 100000) (j : Fin 40), i = ix2 r j := ⟨i 0, i 1, eq_ix2 i⟩
  rw [Cert.Spec.logSoftmax_apply]
  unfold lsmH
  rw [subf_apply, shiftH_apply, col1_apply, hostLog_apply, col0_apply, rowSumH_apply]
  rfl

/-! ## The whole -/

/-- The reference's result: the layers and the normalisation read row by row, the aggregations as they are. -/
theorem result_eq (x : FVec Ideal S100000x512 .f32) (e : IVec S2x3200000 32) (W1 : FVec Ideal S512x64 .f32)
    (b1 : FVec Ideal S64 .f32) (W2 : FVec Ideal S64x40 .f32) (b2 : FVec Ideal S40 .f32) :
    result (F := Ideal) x e W1 b1 W2 b2
      = Cert.Spec.logSoftmax (agg40 e (Cert.Spec.layer2 (agg64 e (Cert.Spec.layer1 x W1 (fun j : Fin 64 => b1 (ix1 j)))) W2
          (fun j : Fin 40 => b2 (ix1 j)))) := by
  unfold result
  rw [lin1_eq, lin2_elu_eq, lsm_eq]

end Cert.ReferenceIdeal.RefValue

end
-- ==== Proof.Bridge.lean ====
/-
  The two programs' results are one function of the arguments.

  Both programs aggregate along the edges with the same host operations over the same edge list: the source row and the
  destination row cut from it, a source below zero counted from the end, the sources' rows gathered, and added into a zero
  array at the destinations' rows. The two texts name their dimension records and shape facts apart, but the records hold
  the same numbers, so the two aggregations are the same function, at width 64 and at width 40. Around them both results
  are the first layer, the second layer after the exponential linear unit, and the row-by-row logarithm of the softmax.
-/
import proofs.«127312_j40063454937539_1_alg».proof.Proof.KValue
import proofs.«127312_j40063454937539_1_alg».proof.Proof.RefValue

noncomputable section

namespace Cert.Bridge

open Idealize.ShloMosaic

attribute [local irreducible] Host.gather Host.scatterAdd in
/-- The aggregation at width 64 is the same function in both programs. -/
theorem agg64_eq (e : IVec Cert.KernelIdeal.S2x3200000 32) (h : FVec Ideal Cert.KernelIdeal.S100000x64 .f32) :
    Cert.ReferenceIdeal.RefRun.agg64 (F := Ideal) e h
      = Cert.KernelIdeal.KValue.agg64 (F := Ideal) (Cert.KernelIdeal.KValue.srcRaw e) (Cert.KernelIdeal.KValue.dstRaw e) h := rfl

attribute [local irreducible] Host.gather Host.scatterAdd in
/-- The aggregation at width 40 is the same function in both programs. -/
theorem agg40_eq (e : IVec Cert.KernelIdeal.S2x3200000 32) (h : FVec Ideal Cert.KernelIdeal.S100000x40 .f32) :
    Cert.ReferenceIdeal.RefRun.agg40 (F := Ideal) e h
      = Cert.KernelIdeal.KValue.agg40 (F := Ideal) (Cert.KernelIdeal.KValue.srcRaw e) (Cert.KernelIdeal.KValue.dstRaw e) h := rfl

/-- The reference's result is the idealized kernel's, as functions of the six arguments. -/
theorem result_eq (x : FVec Ideal Cert.KernelIdeal.S100000x512 .f32) (e : IVec Cert.KernelIdeal.S2x3200000 32)
    (w1 : FVec Ideal Cert.KernelIdeal.S512x64 .f32) (b1 : FVec Ideal Cert.KernelIdeal.S64 .f32)
    (w2 : FVec Ideal Cert.KernelIdeal.S64x40 .f32) (b2 : FVec Ideal Cert.KernelIdeal.S40 .f32) :
    Cert.ReferenceIdeal.RefRun.result (F := Ideal) x e w1 b1 w2 b2 = Cert.KernelIdeal.KValue.result x e w1 b1 w2 b2 := by
  rw [Cert.ReferenceIdeal.RefValue.result_eq, agg64_eq, agg40_eq]
  rfl

end Cert.Bridge

end
-- ==== Proof.lean ====
/-
  A two-layer graph network on 100000 nodes: the tiled kernel against the plain program, over the extended reals.

  Both compute, from node features `x`, an edge list, and two weight matrices with their biases: the affine layer
  `x · W1 + b1` of every node; its aggregation along the edges (every edge adds its source's row to its destination's row);
  the exponential linear unit and the second affine layer `· W2 + b2`; the same aggregation; and the logarithm of each row's
  softmax. The kernel runs the three dense stages as launches over 25 tiles of 4000 rows and leaves the aggregations to
  the host; the plain program runs everything on the host. On the extended reals the narrowing before a product is the
  identity and a product accumulated into zero is the plain sum, so each launch leaves the stage's value of every row
  (Region0, Region1, Region2); `exp h − 1` under a select on `h > 0` is the guarded `1 · expm1` spelling (EluForms); a row's
  maximum taken once more against −∞ is the row's maximum; and the aggregation is the same function in both texts
  (Bridge). No step needs the inputs to be finite: the precondition is not opened.

  The three frames: the kernel's two are the generated frames; the reference's is its run (RefRun) with the result
  dropped. The idealization rewrote nothing, so there is nothing to preserve.
-/
import proofs.«127312_j40063454937539_1_alg».proof.Defs
import proofs.«127312_j40063454937539_1_alg».proof.Proof.Gen.Kernel
import proofs.«127312_j40063454937539_1_alg».proof.Proof.Gen.Kernel.Skeleton
import proofs.«127312_j40063454937539_1_alg».proof.Proof.Gen.Kernel.Launch
import proofs.«127312_j40063454937539_1_alg».proof.Proof.Gen.Kernel.Points
import proofs.«127312_j40063454937539_1_alg».proof.Proof.Gen.Kernel.Frame
import proofs.«127312_j40063454937539_1_alg».proof.Proof.Gen.KernelIdeal
import proofs.«127312_j40063454937539_1_alg».proof.Proof.Gen.KernelIdeal.Skeleton
import proofs.«127312_j40063454937539_1_alg».proof.Proof.Gen.KernelIdeal.Launch
import proofs.«127312_j40063454937539_1_alg».proof.Proof.Gen.KernelIdeal.Points
import proofs.«127312_j40063454937539_1_alg».proof.Proof.Gen.KernelIdeal.Frame
import proofs.«127312_j40063454937539_1_alg».proof.Proof.Gen.ReferenceIdeal
import proofs.«127312_j40063454937539_1_alg».proof.Proof.Gen.Pre_finite_inputs
import proofs.«127312_j40063454937539_1_alg».proof.Proof.KRun
import proofs.«127312_j40063454937539_1_alg».proof.Proof.KValue
import proofs.«127312_j40063454937539_1_alg».proof.Proof.RefRun
import proofs.«127312_j40063454937539_1_alg».proof.Proof.RefValue
import proofs.«127312_j40063454937539_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and its arguments end as launched: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end with the same array: the kernel's run ends at `KValue.result` of its arguments, the
    reference's at its own composition of stages, and the two are one function of arguments that agree. -/
theorem algebraic : Cert.algebraic_KernelIdeal_ReferenceIdeal := by
  intro m ρ m' ρ' _ hagree
  refine ⟨fun c => Cert.KernelIdeal.KValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.value m ρ c), (h c).2⟩)
      (Cert.KernelIdeal.ValueRun.run_value m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5⟩ := hagree c
    rw [e0, e1, e2, e3, e4, e5]
    exact Cert.Bridge.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
